-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S80x4096 : Shape := ⟨2, ![80, 4096]⟩
abbrev S80 : Shape := ⟨1, ![80]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S80x4096 : S_.BroadcastsInDim S80x4096 (![] : Fin 0 → Fin S80x4096.rank)
  reducesTo_S80x4096_S_d0_1 : S80x4096.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S80x4096 1) : IVec S_ 1 :=
  let main_c_5 : IVec S_ 1 := constantI S_ 1 1#1
  let main_v17 : IVec S_ 1 := (fun x v => Host.reduce IntOp.andi x v reducesTo_S80x4096_S_d0_1 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S80x4096 .f32) (main_arg4 : FVec F S80 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S80x4096 .f32 := Host.absf main_arg3
  let main_cst_4 : FVec F S_ .f32 := constant S_ .f32 0x7F800000#32
  let main_v15 : FVec F S80x4096 .f32 := broadcastInDim S80x4096 ![] bcast_S_S80x4096 main_cst_4
  let main_v16 : IVec S80x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S80x4096 : Shape := ⟨2, ![80, 4096]⟩
abbrev S80 : Shape := ⟨1, ![80]⟩
abbrev S512x512 : Shape := ⟨2, ![512, 512]⟩
abbrev S1x512x512 : Shape := ⟨3, ![1, 512, 512]⟩
abbrev S8x512x512 : Shape := ⟨3, ![8, 512, 512]⟩
abbrev S10x512 : Shape := ⟨2, ![10, 512]⟩
abbrev S1x10x512 : Shape := ⟨3, ![1, 10, 512]⟩
abbrev S8x10x512 : Shape := ⟨3, ![8, 10, 512]⟩
abbrev S8x512 : Shape := ⟨2, ![8, 512]⟩
abbrev S8x10 : Shape := ⟨2, ![8, 10]⟩
abbrev S8192x8x512 : Shape := ⟨3, ![8192, 8, 512]⟩
abbrev S8192x8x10 : Shape := ⟨3, ![8192, 8, 10]⟩
abbrev S512x8x512 : Shape := ⟨3, ![512, 8, 512]⟩
abbrev S512x8x10 : Shape := ⟨3, ![512, 8, 10]⟩
abbrev S512x1x512 : Shape := ⟨3, ![512, 1, 512]⟩
abbrev S1x512 : Shape := ⟨2, ![1, 512]⟩
abbrev S512 : Shape := ⟨1, ![512]⟩
abbrev S1x10 : Shape := ⟨2, ![1, 10]⟩
abbrev S10 : Shape := ⟨1, ![10]⟩
abbrev S512x10 : Shape := ⟨2, ![512, 10]⟩
abbrev S512x1x10 : Shape := ⟨3, ![512, 1, 10]⟩

abbrev nBuf : Space → Nat
  | .hbm => 45
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S80x4096, .f32⟩
  | .hbm, ⟨4, _⟩ => ⟨S80, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S1x512x512, .f32⟩
  | .hbm, ⟨14, _⟩ => ⟨S1x512x512, .f32⟩
  | .hbm, ⟨15, _⟩ => ⟨S1x512x512, .f32⟩
  | .hbm, ⟨16, _⟩ => ⟨S1x512x512, .f32⟩
  | .hbm, ⟨17, _⟩ => ⟨S1x512x512, .f32⟩
  | .hbm, ⟨18, _⟩ => ⟨S1x512x512, .f32⟩
  | .hbm, ⟨19, _⟩ => ⟨S1x512x512, .f32⟩
  | .hbm, ⟨20, _⟩ => ⟨S1x512x512, .f32⟩
  | .hbm, ⟨21, _⟩ => ⟨S8x512x512, .f32⟩
  | .hbm, ⟨22, _⟩ => ⟨S8x512x512, .bf16⟩
  | .hbm, ⟨23, _⟩ => ⟨S10x512, .f32⟩
  | .hbm, ⟨24, _⟩ => ⟨S10x512, .f32⟩
  | .hbm, ⟨25, _⟩ => ⟨S10x512, .f32⟩
  | .hbm, ⟨26, _⟩ => ⟨S10x512, .f32⟩
  | .hbm, ⟨27, _⟩ => ⟨S10x512, .f32⟩
  | .hbm, ⟨28, _⟩ => ⟨S10x512, .f32⟩
  | .hbm, ⟨29, _⟩ => ⟨S10x512, .f32⟩
  | .hbm, ⟨30, _⟩ => ⟨S10x512, .f32⟩
  | .hbm, ⟨31, _⟩ => ⟨S1x10x512, .f32⟩
  | .hbm, ⟨32, _⟩ => ⟨S1x10x512, .f32⟩
  | .hbm, ⟨33, _⟩ => ⟨S1x10x512, .f32⟩
  | .hbm, ⟨34, _⟩ => ⟨S1x10x512, .f32⟩
  | .hbm, ⟨35, _⟩ => ⟨S1x10x512, .f32⟩
  | .hbm, ⟨36, _⟩ => ⟨S1x10x512, .f32⟩
  | .hbm, ⟨37, _⟩ => ⟨S1x10x512, .f32⟩
  | .hbm, ⟨38, _⟩ => ⟨S1x10x512, .f32⟩
  | .hbm, ⟨39, _⟩ => ⟨S8x10x512, .f32⟩
  | .hbm, ⟨40, _⟩ => ⟨S8x10x512, .bf16⟩
  | .hbm, ⟨41, _⟩ => ⟨S8x512, .f32⟩
  | .hbm, ⟨42, _⟩ => ⟨S8x10, .f32⟩
  | .hbm, ⟨43, _⟩ => ⟨S8192x8x512, .f32⟩
  | .hbm, ⟨44, _⟩ => ⟨S8192x8x10, .f32⟩
  | .local _ .vmem, ⟨0, _⟩ => ⟨S512x8x512, .f32⟩
  | .local _ .vmem, ⟨1, _⟩ => ⟨S512x8x512, .f32⟩
  | .local _ .vmem, ⟨2, _⟩ => ⟨S8x512x512, .bf16⟩
  | .local _ .vmem, ⟨3, _⟩ => ⟨S8x512, .f32⟩
  | .local _ .vmem, ⟨4, _⟩ => ⟨S8x10x512, .bf16⟩
  | .local _ .vmem, ⟨5, _⟩ => ⟨S8x10, .f32⟩
  | .local _ .vmem, ⟨6, _⟩ => ⟨S512x8x10, .f32⟩
  | .local _ .vmem, ⟨7, _⟩ => ⟨S512x8x10, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x10x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x8x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S4096x4096_S512x512_0_0 : S4096x4096.Slices ![0, 0] S512x512
  slices_S4096x4096_S512x512_512_512 : S4096x4096.Slices ![512, 512] S512x512
  slices_S4096x4096_S512x512_1024_1024 : S4096x4096.Slices ![1024, 1024] S512x512
  slices_S4096x4096_S512x512_1536_1536 : S4096x4096.Slices ![1536, 1536] S512x512
  slices_S4096x4096_S512x512_2048_2048 : S4096x4096.Slices ![2048, 2048] S512x512
  slices_S4096x4096_S512x512_2560_2560 : S4096x4096.Slices ![2560, 2560] S512x512
  slices_S4096x4096_S512x512_3072_3072 : S4096x4096.Slices ![3072, 3072] S512x512
  slices_S4096x4096_S512x512_3584_3584 : S4096x4096.Slices ![3584, 3584] S512x512
  bcast_S512x512_S1x512x512_1_2 : S512x512.BroadcastsInDim S1x512x512 (![1, 2] : Fin 2 → Fin S1x512x512.rank)
  concatenates_S1x512x512_S1x512x512_S1x512x512_S1x512x512_S1x512x512_S1x512x512_S1x512x512_S1x512x512_S8x512x512_d0 : Shape.Concatenates [S1x512x512, S1x512x512, S1x512x512, S1x512x512, S1x512x512, S1x512x512, S1x512x512, S1x512x512] S8x512x512 0
  bitsLt_bf16_f32 : FTy.bits .bf16 < FTy.bits .f32
  slices_S80x4096_S10x512_0_0 : S80x4096.Slices ![0, 0] S10x512
  slices_S80x4096_S10x512_10_512 : S80x4096.Slices ![10, 512] S10x512
  slices_S80x4096_S10x512_20_1024 : S80x4096.Slices ![20, 1024] S10x512
  slices_S80x4096_S10x512_30_1536 : S80x4096.Slices ![30, 1536] S10x512
  slices_S80x4096_S10x512_40_2048 : S80x4096.Slices ![40, 2048] S10x512
  slices_S80x4096_S10x512_50_2560 : S80x4096.Slices ![50, 2560] S10x512
  slices_S80x4096_S10x512_60_3072 : S80x4096.Slices ![60, 3072] S10x512
  slices_S80x4096_S10x512_70_3584 : S80x4096.Slices ![70, 3584] S10x512
  bcast_S10x512_S1x10x512_1_2 : S10x512.BroadcastsInDim S1x10x512 (![1, 2] : Fin 2 → Fin S1x10x512.rank)
  concatenates_S1x10x512_S1x10x512_S1x10x512_S1x10x512_S1x10x512_S1x10x512_S1x10x512_S1x10x512_S8x10x512_d0 : Shape.Concatenates [S1x10x512, S1x10x512, S1x10x512, S1x10x512, S1x10x512, S1x10x512, S1x10x512, S1x10x512] S8x10x512 0
  shapeCasts_S4096_S8x512 : S4096.ShapeCasts S8x512
  shapeCasts_S80_S8x10 : S80.ShapeCasts S8x10
  shapeCasts_S8192x4096_S8192x8x512 : S8192x4096.ShapeCasts S8192x8x512
  inb_S512x8x512_S512x1x512_0_0_0 : ∀ a, (![0, 0, 0] : Fin 3 → Nat) a + S512x1x512.size a ≤ S512x8x512.size a
  h_S512x1x512 : 0 < S512x1x512.numel
  shapeCasts_S512x1x512_S512x512 : S512x1x512.ShapeCasts S512x512
  inb_S8x512x512_S1x512x512_0_0_0 : ∀ a, (![0, 0, 0] : Fin 3 → Nat) a + S1x512x512.size a ≤ S8x512x512.size a
  h_S1x512x512 : 0 < S1x512x512.numel
  shapeCasts_S1x512x512_S512x512 : S1x512x512.ShapeCasts S512x512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S8x10x512_S1x10x512_0_0_0 : ∀ a, (![0, 0, 0] : Fin 3 → Nat) a + S1x10x512.size a ≤ S8x10x512.size a
  h_S1x10x512 : 0 < S1x10x512.numel
  shapeCasts_S1x10x512_S10x512 : S1x10x512.ShapeCasts S10x512
  inb_S8x10_S1x10_0_0 : ∀ a, (![0, 0] : Fin 2 → Nat) a + S1x10.size a ≤ S8x10.size a
  h_S1x10 : 0 < S1x10.numel
  shapeCasts_S1x10_S10 : S1x10.ShapeCasts S10
  shapeCasts_S10_S1x10 : S10.ShapeCasts S1x10
  broadcasts_S1x10_S512x10 : S1x10.Broadcasts S512x10
  inb_S512x8x10_S512x1x10_0_0_0 : ∀ a, (![0, 0, 0] : Fin 3 → Nat) a + S512x1x10.size a ≤ S512x8x10.size a
  h_S512x1x10 : 0 < S512x1x10.numel
  shapeCasts_S512x1x10_S512x10 : S512x1x10.ShapeCasts S512x10
  shapeCasts_S512x10_S512x1x10 : S512x10.ShapeCasts S512x1x10
  inb_S512x8x512_S512x1x512_0_1_0 : ∀ a, (![0, 1, 0] : Fin 3 → Nat) a + S512x1x512.size a ≤ S512x8x512.size a
  inb_S8x512x512_S1x512x512_1_0_0 : ∀ a, (![1, 0, 0] : Fin 3 → Nat) a + S1x512x512.size a ≤ S8x512x512.size a
  inb_S8x512_S1x512_1_0 : ∀ a, (![1, 0] : Fin 2 → Nat) a + S1x512.size a ≤ S8x512.size a
  inb_S8x10x512_S1x10x512_1_0_0 : ∀ a, (![1, 0, 0] : Fin 3 → Nat) a + S1x10x512.size a ≤ S8x10x512.size a
  inb_S8x10_S1x10_1_0 : ∀ a, (![1, 0] : Fin 2 → Nat) a + S1x10.size a ≤ S8x10.size a
  inb_S512x8x10_S512x1x10_0_1_0 : ∀ a, (![0, 1, 0] : Fin 3 → Nat) a + S512x1x10.size a ≤ S512x8x10.size a
  inb_S512x8x512_S512x1x512_0_2_0 : ∀ a, (![0, 2, 0] : Fin 3 → Nat) a + S512x1x512.size a ≤ S512x8x512.size a
  inb_S8x512x512_S1x512x512_2_0_0 : ∀ a, (![2, 0, 0] : Fin 3 → Nat) a + S1x512x512.size a ≤ S8x512x512.size a
  inb_S8x512_S1x512_2_0 : ∀ a, (![2, 0] : Fin 2 → Nat) a + S1x512.size a ≤ S8x512.size a
  inb_S8x10x512_S1x10x512_2_0_0 : ∀ a, (![2, 0, 0] : Fin 3 → Nat) a + S1x10x512.size a ≤ S8x10x512.size a
  inb_S8x10_S1x10_2_0 : ∀ a, (![2, 0] : Fin 2 → Nat) a + S1x10.size a ≤ S8x10.size a
  inb_S512x8x10_S512x1x10_0_2_0 : ∀ a, (![0, 2, 0] : Fin 3 → Nat) a + S512x1x10.size a ≤ S512x8x10.size a
  inb_S512x8x512_S512x1x512_0_3_0 : ∀ a, (![0, 3, 0] : Fin 3 → Nat) a + S512x1x512.size a ≤ S512x8x512.size a
  inb_S8x512x512_S1x512x512_3_0_0 : ∀ a, (![3, 0, 0] : Fin 3 → Nat) a + S1x512x512.size a ≤ S8x512x512.size a
  inb_S8x512_S1x512_3_0 : ∀ a, (![3, 0] : Fin 2 → Nat) a + S1x512.size a ≤ S8x512.size a
  inb_S8x10x512_S1x10x512_3_0_0 : ∀ a, (![3, 0, 0] : Fin 3 → Nat) a + S1x10x512.size a ≤ S8x10x512.size a
  inb_S8x10_S1x10_3_0 : ∀ a, (![3, 0] : Fin 2 → Nat) a + S1x10.size a ≤ S8x10.size a
  inb_S512x8x10_S512x1x10_0_3_0 : ∀ a, (![0, 3, 0] : Fin 3 → Nat) a + S512x1x10.size a ≤ S512x8x10.size a
  inb_S512x8x512_S512x1x512_0_4_0 : ∀ a, (![0, 4, 0] : Fin 3 → Nat) a + S512x1x512.size a ≤ S512x8x512.size a
  inb_S8x512x512_S1x512x512_4_0_0 : ∀ a, (![4, 0, 0] : Fin 3 → Nat) a + S1x512x512.size a ≤ S8x512x512.size a
  inb_S8x512_S1x512_4_0 : ∀ a, (![4, 0] : Fin 2 → Nat) a + S1x512.size a ≤ S8x512.size a
  inb_S8x10x512_S1x10x512_4_0_0 : ∀ a, (![4, 0, 0] : Fin 3 → Nat) a + S1x10x512.size a ≤ S8x10x512.size a
  inb_S8x10_S1x10_4_0 : ∀ a, (![4, 0] : Fin 2 → Nat) a + S1x10.size a ≤ S8x10.size a
  inb_S512x8x10_S512x1x10_0_4_0 : ∀ a, (![0, 4, 0] : Fin 3 → Nat) a + S512x1x10.size a ≤ S512x8x10.size a
  inb_S512x8x512_S512x1x512_0_5_0 : ∀ a, (![0, 5, 0] : Fin 3 → Nat) a + S512x1x512.size a ≤ S512x8x512.size a
  inb_S8x512x512_S1x512x512_5_0_0 : ∀ a, (![5, 0, 0] : Fin 3 → Nat) a + S1x512x512.size a ≤ S8x512x512.size a
  inb_S8x512_S1x512_5_0 : ∀ a, (![5, 0] : Fin 2 → Nat) a + S1x512.size a ≤ S8x512.size a
  inb_S8x10x512_S1x10x512_5_0_0 : ∀ a, (![5, 0, 0] : Fin 3 → Nat) a + S1x10x512.size a ≤ S8x10x512.size a
  inb_S8x10_S1x10_5_0 : ∀ a, (![5, 0] : Fin 2 → Nat) a + S1x10.size a ≤ S8x10.size a
  inb_S512x8x10_S512x1x10_0_5_0 : ∀ a, (![0, 5, 0] : Fin 3 → Nat) a + S512x1x10.size a ≤ S512x8x10.size a
  inb_S512x8x512_S512x1x512_0_6_0 : ∀ a, (![0, 6, 0] : Fin 3 → Nat) a + S512x1x512.size a ≤ S512x8x512.size a
  inb_S8x512x512_S1x512x512_6_0_0 : ∀ a, (![6, 0, 0] : Fin 3 → Nat) a + S1x512x512.size a ≤ S8x512x512.size a
  inb_S8x512_S1x512_6_0 : ∀ a, (![6, 0] : Fin 2 → Nat) a + S1x512.size a ≤ S8x512.size a
  inb_S8x10x512_S1x10x512_6_0_0 : ∀ a, (![6, 0, 0] : Fin 3 → Nat) a + S1x10x512.size a ≤ S8x10x512.size a
  inb_S8x10_S1x10_6_0 : ∀ a, (![6, 0] : Fin 2 → Nat) a + S1x10.size a ≤ S8x10.size a
  inb_S512x8x10_S512x1x10_0_6_0 : ∀ a, (![0, 6, 0] : Fin 3 → Nat) a + S512x1x10.size a ≤ S512x8x10.size a
  inb_S512x8x512_S512x1x512_0_7_0 : ∀ a, (![0, 7, 0] : Fin 3 → Nat) a + S512x1x512.size a ≤ S512x8x512.size a
  inb_S8x512x512_S1x512x512_7_0_0 : ∀ a, (![7, 0, 0] : Fin 3 → Nat) a + S1x512x512.size a ≤ S8x512x512.size a
  inb_S8x512_S1x512_7_0 : ∀ a, (![7, 0] : Fin 2 → Nat) a + S1x512.size a ≤ S8x512.size a
  inb_S8x10x512_S1x10x512_7_0_0 : ∀ a, (![7, 0, 0] : Fin 3 → Nat) a + S1x10x512.size a ≤ S8x10x512.size a
  inb_S8x10_S1x10_7_0 : ∀ a, (![7, 0] : Fin 2 → Nat) a + S1x10.size a ≤ S8x10.size a
  inb_S512x8x10_S512x1x10_0_7_0 : ∀ a, (![0, 7, 0] : Fin 3 → Nat) a + S512x1x10.size a ≤ S512x8x10.size a
  dot_S512x512_S512x512_S512x512_1_1_0_0_n_n_wf : DotDims.WF S512x512 S512x512 S512x512 [1] [1] [0] [0] [] []
  dot_S512x512_S10x512_S512x10_1_1_0_0_n_n_wf : DotDims.WF S512x512 S10x512 S512x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x512.size a ≤ S8192x8x512.size a
  hwx0_0 : ∀ i : grid0.Coords, EltTy.bits .f32 = 32 ∨ (Rect.block (s := S8192x8x512) S512x8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S8x512x512.size a
  hwx0_1 : ∀ i : grid0.Coords, EltTy.bits .bf16 = 32 ∨ (Rect.block (s := S8x512x512) S8x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x10x512.size a ≤ S8x10x512.size a
  hwx0_3 : ∀ i : grid0.Coords, EltTy.bits .bf16 = 32 ∨ (Rect.block (s := S8x10x512) S8x10x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x10.size a ≤ S8x10.size a
  hwx0_4 : ∀ i : grid0.Coords, EltTy.bits .f32 = 32 ∨ (Rect.block (s := S8x10) S8x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x8x10.size a ≤ S8192x8x10.size a
  hwx0_5 : ∀ i : grid0.Coords, EltTy.bits .f32 = 32 ∨ (Rect.block (s := S8192x8x10) S512x8x10.size (cc0_transform_5 i) (hinb0_5 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S512x512_S10x512_S512x10_1_1_0_0_n_n : DotDims S512x512 S10x512 S512x10 where
  lhsContracting := [1]
  rhsContracting := [1]
  lhsNonContracting := [0]
  rhsNonContracting := [0]
  lhsBatch := []
  rhsBatch := []
  wf := dot_S512x512_S10x512_S512x10_1_1_0_0_n_n_wf

abbrev win0_0 : Pipeline.Window sig grid0 :=
  Pipeline.Window.ofSpec (Memref.whole main_v38) S512x8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S8x10x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S8x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S512x8x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S80x4096 : Shape := ⟨2, ![80, 4096]⟩
abbrev S80 : Shape := ⟨1, ![80]⟩
abbrev S8x8 : Shape := ⟨2, ![8, 8]⟩
abbrev S_ : Shape := ⟨0, ![]⟩
abbrev S8x512x8 : Shape := ⟨3, ![8, 512, 8]⟩
abbrev S4096x8 : Shape := ⟨2, ![4096, 8]⟩
abbrev S4096x8x512 : Shape := ⟨3, ![4096, 8, 512]⟩
abbrev S8x10x8 : Shape := ⟨3, ![8, 10, 8]⟩
abbrev S80x8 : Shape := ⟨2, ![80, 8]⟩
abbrev S80x8x512 : Shape := ⟨3, ![80, 8, 512]⟩
abbrev S1x4096 : Shape := ⟨2, ![1, 4096]⟩
abbrev S4096x80 : Shape := ⟨2, ![4096, 80]⟩
abbrev S8192x80 : Shape := ⟨2, ![8192, 80]⟩
abbrev S1x80 : Shape := ⟨2, ![1, 80]⟩
abbrev S8192x8x10 : Shape := ⟨3, ![8192, 8, 10]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S80x4096, .f32⟩
  | .hbm, ⟨4, _⟩ => ⟨S80, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x512x8, .f32⟩
  | .hbm, ⟨13, _⟩ => ⟨S4096x8, .f32⟩
  | .hbm, ⟨14, _⟩ => ⟨S4096x8x512, .f32⟩
  | .hbm, ⟨15, _⟩ => ⟨S4096x4096, .f32⟩
  | .hbm, ⟨16, _⟩ => ⟨S8x8, .i32⟩
  | .hbm, ⟨17, _⟩ => ⟨S8x8, .i32⟩
  | .hbm, ⟨18, _⟩ => ⟨S_, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S8x8, .f32⟩
  | .hbm, ⟨23, _⟩ => ⟨S8x10x8, .f32⟩
  | .hbm, ⟨24, _⟩ => ⟨S80x8, .f32⟩
  | .hbm, ⟨25, _⟩ => ⟨S80x8x512, .f32⟩
  | .hbm, ⟨26, _⟩ => ⟨S80x4096, .f32⟩
  | .hbm, ⟨27, _⟩ => ⟨S4096x4096, .f32⟩
  | .hbm, ⟨28, _⟩ => ⟨S4096x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S80x4096, .f32⟩
  | .hbm, ⟨37, _⟩ => ⟨S4096x80, .f32⟩
  | .hbm, ⟨38, _⟩ => ⟨S8192x80, .f32⟩
  | .hbm, ⟨39, _⟩ => ⟨S1x80, .f32⟩
  | .hbm, ⟨40, _⟩ => ⟨S8192x80, .f32⟩
  | .hbm, ⟨41, _⟩ => ⟨S8192x80, .f32⟩
  | .hbm, ⟨42, _⟩ => ⟨S8192x8x10, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_cst : Ref sig .tc := ⟨.hbm, 33, rfl⟩
abbrev main_call0_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S8x8 : S_.BroadcastsInDim S8x8 (![] : Fin 0 → Fin S8x8.rank)
  bcast_S8x8_S8x512x8_0_2 : S8x8.BroadcastsInDim S8x512x8 (![0, 2] : Fin 2 → Fin S8x512x8.rank)
  shapeCasts_S8x512x8_S4096x8 : S8x512x8.ShapeCasts S4096x8
  bcast_S4096x8_S4096x8x512_0_1 : S4096x8.BroadcastsInDim S4096x8x512 (![0, 1] : Fin 2 → Fin S4096x8x512.rank)
  shapeCasts_S4096x8x512_S4096x4096 : S4096x8x512.ShapeCasts S4096x4096
  bcast_S8x8_S8x10x8_0_2 : S8x8.BroadcastsInDim S8x10x8 (![0, 2] : Fin 2 → Fin S8x10x8.rank)
  shapeCasts_S8x10x8_S80x8 : S8x10x8.ShapeCasts S80x8
  bcast_S80x8_S80x8x512_0_1 : S80x8.BroadcastsInDim S80x8x512 (![0, 1] : Fin 2 → Fin S80x8x512.rank)
  shapeCasts_S80x8x512_S80x4096 : S80x8x512.ShapeCasts S80x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S80x4096_S4096x80_1_0 : S80x4096.Transposes [1, 0] S4096x80
  bcast_S80_S1x80_1 : S80.BroadcastsInDim S1x80 (![1] : Fin 1 → Fin S1x80.rank)
  bcast_S1x80_S8192x80_0_1 : S1x80.BroadcastsInDim S8192x80 (![0, 1] : Fin 2 → Fin S8192x80.rank)
  shapeCasts_S8192x80_S8192x8x10 : S8192x80.ShapeCasts S8192x8x10
  dot_S8192x4096_S4096x4096_S8192x4096_1_0_0_1_n_n_wf : DotDims.WF S8192x4096 S4096x4096 S8192x4096 [1] [0] [0] [1] [] []
  dot_S8192x4096_S4096x80_S8192x80_1_0_0_1_n_n_wf : DotDims.WF S8192x4096 S4096x80 S8192x80 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x80_S8192x80_1_0_0_1_n_n : DotDims S8192x4096 S4096x80 S8192x80 where
  lhsContracting := [1]
  rhsContracting := [0]
  lhsNonContracting := [0]
  rhsNonContracting := [1]
  lhsBatch := []
  rhsBatch := []
  wf := dot_S8192x4096_S4096x80_S8192x80_1_0_0_1_n_n_wf

class Facts : Prop extends Facts₀ where

variable [Facts]
-- ==== Proof.BitsEntry.lean ====
/- The same statements and proofs as the template, for the kernel as printed and read at the word level: the two
   programs are one text under two namespaces, and the template is generic in the float instance. -/
import proofs.«165881_j29575144800944_1_alg».proof.Proof.Gen.Kernel.Launch
import proofs.«165881_j29575144800944_1_alg».proof.Proof.Gen.Kernel.Points
import Idealize.ShloMosaic.Lib.Pipeline.FrameBody

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch contents after the host operations before it. -/
abbrev V (c : Dev nD) (b : Ref sig .tc) : Buf (Elt F) ((c : Thread nD τ).loc b) := StableHlo.after hostOps0 (fun b => m (c, b)) b

/-- Every host operation before the region writes a buffer the program already has: none allocates. -/
theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every grid point, whether the pipeline fetched it
    there or not (where it did not, the block index has not moved since the fetch), for any proof data whose array is
    the region-entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends with every array of the pipeline where the library computes it and every other buffer as the
    region found it leaves the five argument arrays as launched: no window stages an argument array (the windows stage
    the host-made copies), so each is one of the "other" buffers, which the region found as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.Kernel.Fr

end
-- ==== Proof.BitsBody.lean ====
/- The same statements and proofs as the template, for the kernel as printed and read at the word level: the two
   programs are one text under two namespaces, and the template is generic in the float instance. -/
import proofs.«165881_j29575144800944_1_alg».proof.Proof.Gen.Kernel.Launch
import proofs.«165881_j29575144800944_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: module `p`'s slab of each buffer -/

abbrev rx0 : Rect S512x8x512 := Rect.unit (s := S512x8x512) ![0, 0, 0] S512x1x512.size inb_S512x8x512_S512x1x512_0_0_0
abbrev rw0 : Rect S8x512x512 := Rect.unit (s := S8x512x512) ![0, 0, 0] S1x512x512.size inb_S8x512x512_S1x512x512_0_0_0
abbrev rb0 : Rect S8x512 := Rect.unit (s := S8x512) ![0, 0] S1x512.size inb_S8x512_S1x512_0_0
abbrev ru0 : Rect S8x10x512 := Rect.unit (s := S8x10x512) ![0, 0, 0] S1x10x512.size inb_S8x10x512_S1x10x512_0_0_0
abbrev rc0 : Rect S8x10 := Rect.unit (s := S8x10) ![0, 0] S1x10.size inb_S8x10_S1x10_0_0
abbrev ro0 : Rect S512x8x10 := Rect.unit (s := S512x8x10) ![0, 0, 0] S512x1x10.size inb_S512x8x10_S512x1x10_0_0_0
abbrev rx1 : Rect S512x8x512 := Rect.unit (s := S512x8x512) ![0, 1, 0] S512x1x512.size inb_S512x8x512_S512x1x512_0_1_0
abbrev rw1 : Rect S8x512x512 := Rect.unit (s := S8x512x512) ![1, 0, 0] S1x512x512.size inb_S8x512x512_S1x512x512_1_0_0
abbrev rb1 : Rect S8x512 := Rect.unit (s := S8x512) ![1, 0] S1x512.size inb_S8x512_S1x512_1_0
abbrev ru1 : Rect S8x10x512 := Rect.unit (s := S8x10x512) ![1, 0, 0] S1x10x512.size inb_S8x10x512_S1x10x512_1_0_0
abbrev rc1 : Rect S8x10 := Rect.unit (s := S8x10) ![1, 0] S1x10.size inb_S8x10_S1x10_1_0
abbrev ro1 : Rect S512x8x10 := Rect.unit (s := S512x8x10) ![0, 1, 0] S512x1x10.size inb_S512x8x10_S512x1x10_0_1_0
abbrev rx2 : Rect S512x8x512 := Rect.unit (s := S512x8x512) ![0, 2, 0] S512x1x512.size inb_S512x8x512_S512x1x512_0_2_0
abbrev rw2 : Rect S8x512x512 := Rect.unit (s := S8x512x512) ![2, 0, 0] S1x512x512.size inb_S8x512x512_S1x512x512_2_0_0
abbrev rb2 : Rect S8x512 := Rect.unit (s := S8x512) ![2, 0] S1x512.size inb_S8x512_S1x512_2_0
abbrev ru2 : Rect S8x10x512 := Rect.unit (s := S8x10x512) ![2, 0, 0] S1x10x512.size inb_S8x10x512_S1x10x512_2_0_0
abbrev rc2 : Rect S8x10 := Rect.unit (s := S8x10) ![2, 0] S1x10.size inb_S8x10_S1x10_2_0
abbrev ro2 : Rect S512x8x10 := Rect.unit (s := S512x8x10) ![0, 2, 0] S512x1x10.size inb_S512x8x10_S512x1x10_0_2_0
abbrev rx3 : Rect S512x8x512 := Rect.unit (s := S512x8x512) ![0, 3, 0] S512x1x512.size inb_S512x8x512_S512x1x512_0_3_0
abbrev rw3 : Rect S8x512x512 := Rect.unit (s := S8x512x512) ![3, 0, 0] S1x512x512.size inb_S8x512x512_S1x512x512_3_0_0
abbrev rb3 : Rect S8x512 := Rect.unit (s := S8x512) ![3, 0] S1x512.size inb_S8x512_S1x512_3_0
abbrev ru3 : Rect S8x10x512 := Rect.unit (s := S8x10x512) ![3, 0, 0] S1x10x512.size inb_S8x10x512_S1x10x512_3_0_0
abbrev rc3 : Rect S8x10 := Rect.unit (s := S8x10) ![3, 0] S1x10.size inb_S8x10_S1x10_3_0
abbrev ro3 : Rect S512x8x10 := Rect.unit (s := S512x8x10) ![0, 3, 0] S512x1x10.size inb_S512x8x10_S512x1x10_0_3_0
abbrev rx4 : Rect S512x8x512 := Rect.unit (s := S512x8x512) ![0, 4, 0] S512x1x512.size inb_S512x8x512_S512x1x512_0_4_0
abbrev rw4 : Rect S8x512x512 := Rect.unit (s := S8x512x512) ![4, 0, 0] S1x512x512.size inb_S8x512x512_S1x512x512_4_0_0
abbrev rb4 : Rect S8x512 := Rect.unit (s := S8x512) ![4, 0] S1x512.size inb_S8x512_S1x512_4_0
abbrev ru4 : Rect S8x10x512 := Rect.unit (s := S8x10x512) ![4, 0, 0] S1x10x512.size inb_S8x10x512_S1x10x512_4_0_0
abbrev rc4 : Rect S8x10 := Rect.unit (s := S8x10) ![4, 0] S1x10.size inb_S8x10_S1x10_4_0
abbrev ro4 : Rect S512x8x10 := Rect.unit (s := S512x8x10) ![0, 4, 0] S512x1x10.size inb_S512x8x10_S512x1x10_0_4_0
abbrev rx5 : Rect S512x8x512 := Rect.unit (s := S512x8x512) ![0, 5, 0] S512x1x512.size inb_S512x8x512_S512x1x512_0_5_0
abbrev rw5 : Rect S8x512x512 := Rect.unit (s := S8x512x512) ![5, 0, 0] S1x512x512.size inb_S8x512x512_S1x512x512_5_0_0
abbrev rb5 : Rect S8x512 := Rect.unit (s := S8x512) ![5, 0] S1x512.size inb_S8x512_S1x512_5_0
abbrev ru5 : Rect S8x10x512 := Rect.unit (s := S8x10x512) ![5, 0, 0] S1x10x512.size inb_S8x10x512_S1x10x512_5_0_0
abbrev rc5 : Rect S8x10 := Rect.unit (s := S8x10) ![5, 0] S1x10.size inb_S8x10_S1x10_5_0
abbrev ro5 : Rect S512x8x10 := Rect.unit (s := S512x8x10) ![0, 5, 0] S512x1x10.size inb_S512x8x10_S512x1x10_0_5_0
abbrev rx6 : Rect S512x8x512 := Rect.unit (s := S512x8x512) ![0, 6, 0] S512x1x512.size inb_S512x8x512_S512x1x512_0_6_0
abbrev rw6 : Rect S8x512x512 := Rect.unit (s := S8x512x512) ![6, 0, 0] S1x512x512.size inb_S8x512x512_S1x512x512_6_0_0
abbrev rb6 : Rect S8x512 := Rect.unit (s := S8x512) ![6, 0] S1x512.size inb_S8x512_S1x512_6_0
abbrev ru6 : Rect S8x10x512 := Rect.unit (s := S8x10x512) ![6, 0, 0] S1x10x512.size inb_S8x10x512_S1x10x512_6_0_0
abbrev rc6 : Rect S8x10 := Rect.unit (s := S8x10) ![6, 0] S1x10.size inb_S8x10_S1x10_6_0
abbrev ro6 : Rect S512x8x10 := Rect.unit (s := S512x8x10) ![0, 6, 0] S512x1x10.size inb_S512x8x10_S512x1x10_0_6_0
abbrev rx7 : Rect S512x8x512 := Rect.unit (s := S512x8x512) ![0, 7, 0] S512x1x512.size inb_S512x8x512_S512x1x512_0_7_0
abbrev rw7 : Rect S8x512x512 := Rect.unit (s := S8x512x512) ![7, 0, 0] S1x512x512.size inb_S8x512x512_S1x512x512_7_0_0
abbrev rb7 : Rect S8x512 := Rect.unit (s := S8x512) ![7, 0] S1x512.size inb_S8x512_S1x512_7_0
abbrev ru7 : Rect S8x10x512 := Rect.unit (s := S8x10x512) ![7, 0, 0] S1x10x512.size inb_S8x10x512_S1x10x512_7_0_0
abbrev rc7 : Rect S8x10 := Rect.unit (s := S8x10) ![7, 0] S1x10.size inb_S8x10_S1x10_7_0
abbrev ro7 : Rect S512x8x10 := Rect.unit (s := S512x8x10) ![0, 7, 0] S512x1x10.size inb_S512x8x10_S512x1x10_0_7_0

/-! ## What the body leaves in the output buffer -/

/-- The output buffer after the body, from the five input buffers: its eight stores as pieces, the last first; piece
    `p` is module `p`'s arithmetic on the module's slabs of the inputs. -/
def out5 (x0 : Vec F S512x8x512 .f32) (x1 : Vec F S8x512x512 .bf16) (x2 : Vec F S8x512 .f32) (x3 : Vec F S8x10x512 .bf16) (x4 : Vec F S8x10 .f32) :
    Vec F S512x8x10 .f32 :=
  View.canon [
    ⟨ro7, k0_pay16 (View.ld x0 rx7) (View.ld x1 rw7) (View.ld x2 rb7) (View.ld x3 ru7) (View.ld x4 rc7)⟩,
    ⟨ro6, k0_pay15 (k0_pay13 (View.ld x0 rx6) (View.ld x1 rw6) (View.ld x2 rb6)) (k0_pay14 (View.ld x3 ru6)) (View.ld x4 rc6)⟩,
    ⟨ro5, k0_pay12 (k0_pay10 (View.ld x0 rx5)) (k0_pay11 (View.ld x1 rw5)) (View.ld x2 rb5) (View.ld x3 ru5) (View.ld x4 rc5)⟩,
    ⟨ro4, k0_pay9 (View.ld x0 rx4) (View.ld x1 rw4) (View.ld x2 rb4) (View.ld x3 ru4) (View.ld x4 rc4)⟩,
    ⟨ro3, k0_pay8 (View.ld x0 rx3) (View.ld x1 rw3) (View.ld x2 rb3) (View.ld x3 ru3) (View.ld x4 rc3)⟩,
    ⟨ro2, k0_pay7 (k0_pay5 (View.ld x0 rx2) (View.ld x1 rw2) (View.ld x2 rb2)) (k0_pay6 (View.ld x3 ru2)) (View.ld x4 rc2)⟩,
    ⟨ro1, k0_pay4 (k0_pay2 (View.ld x0 rx1)) (k0_pay3 (View.ld x1 rw1)) (View.ld x2 rb1) (View.ld x3 ru1) (View.ld x4 rc1)⟩,
    ⟨ro0, k0_pay1 (View.ld x0 rx0) (View.ld x1 rw0) (View.ld x2 rb0) (View.ld x3 ru0) (View.ld x4 rc0)⟩]

/-- The eight slabs `[:, p, :]` tile the output block, so they cover it. -/
theorem cover5 (p7 p6 p5 p4 p3 p2 p1 p0 : Vec F S512x1x10 .f32) (y : S512x8x10.Idx) :
    ∃ pc ∈ ([⟨ro7, p7⟩, ⟨ro6, p6⟩, ⟨ro5, p5⟩, ⟨ro4, p4⟩, ⟨ro3, p3⟩, ⟨ro2, p2⟩, ⟨ro1, p1⟩, ⟨ro0, p0⟩] : List (View.Piece (Elt F) S512x8x10 .f32)), y ∈ pc.1.set :=
  View.cover_of_tiled [⟨ro7, p7⟩, ⟨ro6, p6⟩, ⟨ro5, p5⟩, ⟨ro4, p4⟩, ⟨ro3, p3⟩, ⟨ro2, p2⟩, ⟨ro1, p1⟩, ⟨ro0, p0⟩] S512x1x10.size (by rfl) y

/-! ## The body's triple -/

set_option maxHeartbeats 4000000 in
/-- On whole staging buffers, the five inputs' at contents `x0 … x4` and the output's at anything, the body runs to the
    continuation with the inputs' as they were and the output's at `out5 x0 x1 x2 x3 x4`. -/
theorem sound_kernel (c : Dev nD) (E : Set ℕ) (i : grid0.Coords)
    (arg1 : Memref sig .tc .vmem S512x8x512 .f32) (harg1 : arg1.IsWhole) (arg2 : Memref sig .tc .vmem S8x512x512 .bf16) (harg2 : arg2.IsWhole)
    (arg3 : Memref sig .tc .vmem S8x512 .f32) (harg3 : arg3.IsWhole) (arg4 : Memref sig .tc .vmem S8x10x512 .bf16) (harg4 : arg4.IsWhole)
    (arg5 : Memref sig .tc .vmem S8x10 .f32) (harg5 : arg5.IsWhole) (arg6 : Memref sig .tc .vmem S512x8x10 .f32) (harg6 : arg6.IsWhole)
    (x0 : Vec F S512x8x512 .f32) (x1 : Vec F S8x512x512 .bf16) (x2 : Vec F S8x512 .f32) (x3 : Vec F S8x10x512 .bf16) (x4 : Vec F S8x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__readout_kernel i arg1 harg1 arg2 harg2 arg3 harg3 arg4 harg4 arg5 harg5 arg6 harg6) K := by
  simp only [cc0__readout_kernel_eq_skeleton]; unfold cc0__readout_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _ _ _ _)

end Cert.Kernel.Fr

end
-- ==== Proof.BitsFrame.lean ====
/- The same statements and proofs as the template, for the kernel as printed and read at the word level: the two
   programs are one text under two namespaces, and the template is generic in the float instance. -/
import proofs.«165881_j29575144800944_1_alg».proof.Proof.BitsEntry
import proofs.«165881_j29575144800944_1_alg».proof.Proof.BitsBody

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the output's at `out5` of the five input blocks; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- Each input's current staging buffer holds its block at every point, fetched there or not. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and at the end every
    array of the pipeline is what the library computes from the proof data, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Fr

end
-- ==== Proof.RefRead.lean ====
/-
  The reference's run and its operations read one at a time at an index (both generated), gathered under one name; the
  bridge from them to the specification is RefValue.lean.
-/
import proofs.«165881_j29575144800944_1_alg».proof.Proof.Gen.ReferenceIdeal.Read
-- ==== Proof.Spec.lean ====
/-
  The function both programs compute, over the extended reals.

  The network is eight independent two-layer perceptrons ("modules") laid side by side. Module `p` sees columns
  `512·p … 512·p + 511` of the input row, uses the `p`-th diagonal 512×512 block of `W1` and the matching slice of `b1`
  for its hidden layer (with the positive part taken), and the `p`-th diagonal 10×512 block of `W2` with the matching
  slice of `b2` for its ten outputs:

    hidden b p k = max (∑ j, x[b, 512p+j] · W1[512p+k, 512p+j] + b1[512p+k]) 0
    G[b, p, o]   = ∑ k, hidden b p k · W2[10p+o, 512p+k] + b2[10p+o].

  Nothing here mentions a program: the kernel's blocks and the reference's masked dense products are each shown equal to
  this one function elsewhere.
-/
import Idealize.ShloMosaic.PureOps.Ideal
import Idealize.ShloMosaic.Lib.ValueIdx

noncomputable section

namespace Cert.Spec

open Idealize.ShloMosaic Idealize.ShloMosaic.ValueIdx

/-- Column `j` of module `p`'s slice, as a column of the full 4096-wide axis. -/
def col (p : Fin 8) (j : Fin 512) : Fin 4096 := ⟨p.val * 512 + j.val, by omega⟩

/-- Output `o` of module `p`, as a row of the full 80-long output axis. -/
def outc (p : Fin 8) (o : Fin 10) : Fin 80 := ⟨p.val * 10 + o.val, by omega⟩

theorem col_val (p : Fin 8) (j : Fin 512) : (col p j).val = p.val * 512 + j.val := rfl
theorem outc_val (p : Fin 8) (o : Fin 10) : (outc p o).val = p.val * 10 + o.val := rfl

/-- Hidden unit `k` of module `p` on input row `b`: the positive part of the block's affine form. -/
def hidden (x : FVec Ideal ⟨2, ![8192, 4096]⟩ .f32) (W1 : FVec Ideal ⟨2, ![4096, 4096]⟩ .f32) (b1 : FVec Ideal ⟨1, ![4096]⟩ .f32)
    (b : Fin 8192) (p : Fin 8) (k : Fin 512) : EReal :=
  max ((∑ j : Fin 512, x (ix2 b (col p j)) * W1 (ix2 (col p k) (col p j))) + b1 (ix1 (col p k))) 0

/-- Output `o` of module `p` on input row `b`. -/
def out (x : FVec Ideal ⟨2, ![8192, 4096]⟩ .f32) (W1 : FVec Ideal ⟨2, ![4096, 4096]⟩ .f32) (b1 : FVec Ideal ⟨1, ![4096]⟩ .f32)
    (W2 : FVec Ideal ⟨2, ![80, 4096]⟩ .f32) (b2 : FVec Ideal ⟨1, ![80]⟩ .f32) (b : Fin 8192) (p : Fin 8) (o : Fin 10) : EReal :=
  (∑ k : Fin 512, hidden x W1 b1 b p k * W2 (ix2 (outc p o) (col p k))) + b2 (ix1 (outc p o))

/-- The whole result array: entry `[b, p, o]` is output `o` of module `p` on row `b`. -/
def G (x : FVec Ideal ⟨2, ![8192, 4096]⟩ .f32) (W1 : FVec Ideal ⟨2, ![4096, 4096]⟩ .f32) (b1 : FVec Ideal ⟨1, ![4096]⟩ .f32)
    (W2 : FVec Ideal ⟨2, ![80, 4096]⟩ .f32) (b2 : FVec Ideal ⟨1, ![80]⟩ .f32) : FVec Ideal ⟨3, ![8192, 8, 10]⟩ .f32 :=
  fun i => out x W1 b1 W2 b2 (i 0) (i 1) (i 2)

theorem G_apply (x : FVec Ideal ⟨2, ![8192, 4096]⟩ .f32) (W1 : FVec Ideal ⟨2, ![4096, 4096]⟩ .f32) (b1 : FVec Ideal ⟨1, ![4096]⟩ .f32)
    (W2 : FVec Ideal ⟨2, ![80, 4096]⟩ .f32) (b2 : FVec Ideal ⟨1, ![80]⟩ .f32) (b : Fin 8192) (p : Fin 8) (o : Fin 10) :
    G x W1 b1 W2 b2 (ix3 b p o) = out x W1 b1 W2 b2 b p o := rfl

end Cert.Spec

end
-- ==== Proof.RefValue.lean ====
/-
  The reference computes the specification.

  The reference multiplies W1 and W2 entrywise by two 0/1 matrices and then takes two dense products over the whole
  4096-long axis. Both 0/1 matrices come from the 8×8 identity matrix, spread out by repeating entries: the first has a 1
  at [n, j] exactly when n and j lie in the same 512-wide block (n / 512 = j / 512), the second has a 1 at [q, j] exactly
  when output row q and column j belong to the same module (q / 10 = j / 512).

  On the extended reals w · 1 = w and x · (w · 0) = 0 for every x and w, finite or not. So in each dense sum every term
  outside module p's block is 0, and the sum over the 4096-long axis is the sum over the 512 columns 512·p + j of that
  block, with the mask gone. Applied to the first product (followed by the bias and the positive part) this gives the
  specification's hidden layer; applied to the second (followed by the bias and the regrouping of the 80 outputs as
  8 × 10) it gives the specification's output.
-/
import proofs.«165881_j29575144800944_1_alg».proof.Proof.RefRead
import proofs.«165881_j29575144800944_1_alg».proof.Proof.Spec
import Idealize.ShloMosaic.Lib.StableHlo.Predicate
import Idealize.ShloMosaic.Lib.ValueIdx
import Idealize.ShloMosaic.PureOps.Ideal.Laws
import Mathlib.Algebra.BigOperators.Group.Finset.Basic
import Mathlib.Data.EReal.Basic

noncomputable section

namespace Cert.RefValue

open Cert.ReferenceIdeal Cert.ReferenceIdeal.Read Idealize.ShloMosaic Idealize.ShloMosaic.ValueIdx Cert.Spec
open Idealize.ShloMosaic.StableHlo.Predicate

/-- Two words made from numbers below 8 are equal exactly when the numbers are. -/
theorem word_eq_iff (a c : Nat) (ha : a < 8) (hc : c < 8) :
    IntOp.addi (BitVec.ofNat 32 a) 0#32 = BitVec.ofNat 32 c ↔ a = c := by
  constructor
  · intro h
    have h' := congrArg BitVec.toNat h
    simp only [IntOp.addi, BitVec.add_zero, BitVec.toNat_ofNat] at h'
    omega
  · rintro rfl
    simp only [IntOp.addi, BitVec.add_zero]

/-- The converted compare word is 1 or 0 as the two numbers agree or not. -/
theorem word_val (a c : Nat) (ha : a < 8) (hc : c < 8) :
    (FloatOps.uitofp (F := Ideal) .f32 (IntOp.cmpi .eq (IntOp.addi (BitVec.ofNat 32 a) 0#32) (BitVec.ofNat 32 c)) : EReal)
      = if a = c then 1 else 0 := by
  show (((IntOp.cmpi .eq (IntOp.addi (BitVec.ofNat 32 a) 0#32) (BitVec.ofNat 32 c)).toNat : ℝ) : EReal) = _
  by_cases h : a = c
  · rw [if_pos h, cmpi_eq_iff.mpr ((word_eq_iff _ _ ha hc).mpr h)]
    simp
  · rw [if_neg h, eq_zero_of_ne_one (fun e => h ((word_eq_iff _ _ ha hc).mp (cmpi_eq_iff.mp e)))]
    simp

/-- The first 8×8 identity matrix at an entry. -/
theorem eye1 (a c : Fin 8) : val_main_v5 (F := Ideal) (ix2 a c) = if a.val = c.val then 1 else 0 := by
  rw [val_main_v5_apply, val_main_v4_apply, val_main_v3_apply, val_main_v0_apply, val_main_v2_apply, val_main_c_apply,
    val_main_v1_apply]
  exact word_val _ _ a.isLt c.isLt

/-- The second 8×8 identity matrix at an entry. -/
theorem eye2 (a c : Fin 8) : val_main_v15 (F := Ideal) (ix2 a c) = if a.val = c.val then 1 else 0 := by
  rw [val_main_v15_apply, val_main_v14_apply, val_main_v13_apply, val_main_v10_apply, val_main_v12_apply, val_main_c_0_apply,
    val_main_v11_apply]
  exact word_val _ _ a.isLt c.isLt

/-- The first mask: entry [n, j] is 1 when row n and column j lie in the same 512-wide block, else 0. -/
theorem mask1 (n j : Fin 4096) :
    val_main_v9 (F := Ideal) (ix2 n j) = if n.val / 512 = j.val / 512 then 1 else 0 := by
  have e : idx_main_v6 (idx_main_v7 (idx_main_v8 (idx_main_v9 (ix2 n j))))
      = ix2 (⟨n.val / 512, by omega⟩ : Fin 8) (⟨j.val / 512, by omega⟩ : Fin 8) := by
    funext a
    apply Fin.ext
    have hn := n.isLt
    have hj := j.isLt
    match a with
    | ⟨0, _⟩ =>
      show (((n.val * 4096 + j.val) / 4096) * 8 + (n.val * 4096 + j.val) / 512 % 8) / 4096 = n.val / 512
      omega
    | ⟨1, _⟩ =>
      show (((n.val * 4096 + j.val) / 4096) * 8 + (n.val * 4096 + j.val) / 512 % 8) % 8 = j.val / 512
      omega
  rw [val_main_v9_apply, val_main_v8_apply, val_main_v7_apply, val_main_v6_apply, e, eye1]

/-- The second mask: entry [q, j] is 1 when output row q (in tens) and column j (in 512s) belong to the same module. -/
theorem mask2 (q : Fin 80) (j : Fin 4096) :
    val_main_v19 (F := Ideal) (ix2 q j) = if q.val / 10 = j.val / 512 then 1 else 0 := by
  have e : idx_main_v16 (idx_main_v17 (idx_main_v18 (idx_main_v19 (ix2 q j))))
      = ix2 (⟨q.val / 10, by omega⟩ : Fin 8) (⟨j.val / 512, by omega⟩ : Fin 8) := by
    funext a
    apply Fin.ext
    have hq := q.isLt
    have hj := j.isLt
    match a with
    | ⟨0, _⟩ =>
      show (((q.val * 4096 + j.val) / 4096) * 8 + (q.val * 4096 + j.val) / 512 % 8) / 80 = q.val / 10
      omega
    | ⟨1, _⟩ =>
      show (((q.val * 4096 + j.val) / 4096) * 8 + (q.val * 4096 + j.val) / 512 % 8) % 8 = j.val / 512
      omega
  rw [val_main_v19_apply, val_main_v18_apply, val_main_v17_apply, val_main_v16_apply, e, eye2]

/-- A sum over the 4096-long axis whose terms vanish outside module p's block is the sum over that block. -/
theorem sum_block (p : Fin 8) (f : Fin 4096 → EReal) (hf : ∀ k : Fin 4096, k.val / 512 ≠ p.val → f k = 0) :
    ∑ k, f k = ∑ j : Fin 512, f (col p j) := by
  have hinj : Function.Injective (col p) := fun a b h => Fin.ext (by
    have h' := congrArg Fin.val h
    simp only [col_val] at h'
    omega)
  rw [← Finset.sum_image (s := Finset.univ) (g := col p) (f := f) (fun a _ b _ h => hinj h)]
  symm
  apply Finset.sum_subset (Finset.subset_univ _)
  intro k _ hk
  apply hf
  intro h
  apply hk
  rw [Finset.mem_image]
  exact ⟨⟨k.val % 512, Nat.mod_lt _ (by norm_num)⟩, Finset.mem_univ _, Fin.ext (by simp only [col_val]; omega)⟩

/-- The reference's hidden layer at row b and any column n, with the mask still in the sum. -/
theorem layer1_raw (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (b : Fin 8192) (n : Fin 4096) :
    val_main_v26 (F := Ideal) x0 x1 x2 (ix2 b n)
      = max ((∑ k : Fin 4096, x0 (ix2 b k) * (x1 (ix2 n k) * (if n.val / 512 = k.val / 512 then 1 else 0))) + x2 (ix1 n)) 0 := by
  have el : ∀ k, lidx_main_v22 (ix2 b n) k = ix2 b k := fun k => funext fun a => Fin.ext (by
    match a with
    | ⟨0, _⟩ => rfl
    | ⟨1, _⟩ => rfl)
  have er : ∀ k, idx_main_v21 (ridx_main_v22 (ix2 b n) k) = ix2 n k := fun k => funext fun a => Fin.ext (by
    match a with
    | ⟨0, _⟩ => rfl
    | ⟨1, _⟩ => rfl)
  have eb : idx_main_v23 (idx_main_v24 (ix2 b n)) = ix1 n := funext fun a => Fin.ext (by
    match a with
    | ⟨0, _⟩ => rfl)
  rw [val_main_v26_apply, val_main_v25_apply, val_main_v22_apply, val_main_v24_apply, val_main_v23_apply,
    val_main_call0_v0_apply, val_main_call0_cst_apply, eb]
  simp only [val_main_v21_apply, val_main_v20_apply, el, er, mask1, Ideal.mulf_def, Ideal.addf_def, Ideal.maximumf_def,
    Ideal.ofBits_def, Ideal.ofBits_zero_f32]

/-- On module p's columns the reference's hidden layer is the specification's. -/
theorem layer1 (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (b : Fin 8192) (p : Fin 8) (k : Fin 512) :
    val_main_v26 (F := Ideal) x0 x1 x2 (ix2 b (col p k)) = hidden x0 x1 x2 b p k := by
  have hk := k.isLt
  rw [layer1_raw, sum_block p]
  · have hs : ∑ j : Fin 512, x0 (ix2 b (col p j)) * (x1 (ix2 (col p k) (col p j))
          * (if (col p k).val / 512 = (col p j).val / 512 then 1 else 0))
        = ∑ j : Fin 512, x0 (ix2 b (col p j)) * x1 (ix2 (col p k) (col p j)) :=
      Finset.sum_congr rfl fun j _ => by
        have hj := j.isLt
        rw [if_pos (by simp only [col_val]; omega), mul_one]
    rw [hs]
    rfl
  · intro m hm
    rw [if_neg (by simp only [col_val]; omega), mul_zero, mul_zero]

/-- The reference's result at [b, p, o] is the specification's output o of module p on row b. -/
theorem ref_at (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S80x4096, .f32⟩ : BufTy).Contents (Elt Ideal))
    (x4 : (⟨S80, .f32⟩ : BufTy).Contents (Elt Ideal)) (b : Fin 8192) (p : Fin 8) (o : Fin 10) :
    val_main_v33 (F := Ideal) x0 x1 x2 x3 x4 (ix3 b p o) = out x0 x1 x2 x3 x4 b p o := by
  have ho := o.isLt
  have e33 : idx_main_v33 (ix3 b p o) = ix2 b (outc p o) := funext fun a => Fin.ext (by
    have hb := b.isLt
    have hp := p.isLt
    match a with
    | ⟨0, _⟩ =>
      show ((b.val * 8 + p.val) * 10 + o.val) / 80 = b.val
      omega
    | ⟨1, _⟩ =>
      show ((b.val * 8 + p.val) * 10 + o.val) % 80 = p.val * 10 + o.val
      omega)
  have el : ∀ k, lidx_main_v29 (ix2 b (outc p o)) k = ix2 b k := fun k => funext fun a => Fin.ext (by
    match a with
    | ⟨0, _⟩ => rfl
    | ⟨1, _⟩ => rfl)
  have er : ∀ k, idx_main_v28 (ridx_main_v29 (ix2 b (outc p o)) k) = ix2 (outc p o) k := fun k => funext fun a => Fin.ext (by
    match a with
    | ⟨0, _⟩ => rfl
    | ⟨1, _⟩ => rfl)
  have eb : idx_main_v30 (idx_main_v31 (ix2 b (outc p o))) = ix1 (outc p o) := funext fun a => Fin.ext (by
    match a with
    | ⟨0, _⟩ => rfl)
  rw [val_main_v33_apply, e33, val_main_v32_apply, val_main_v29_apply, val_main_v31_apply, val_main_v30_apply, eb]
  simp only [val_main_v28_apply, val_main_v27_apply, el, er, mask2, Ideal.mulf_def, Ideal.addf_def]
  rw [sum_block p]
  · have hs : ∑ j : Fin 512, val_main_v26 (F := Ideal) x0 x1 x2 (ix2 b (col p j)) * (x3 (ix2 (outc p o) (col p j))
          * (if (outc p o).val / 10 = (col p j).val / 512 then 1 else 0))
        = ∑ j : Fin 512, hidden x0 x1 x2 b p j * x3 (ix2 (outc p o) (col p j)) :=
      Finset.sum_congr rfl fun j _ => by
        have hj := j.isLt
        rw [if_pos (by simp only [col_val, outc_val]; omega), mul_one, layer1]
    rw [hs]
    rfl
  · intro m hm
    rw [if_neg (by simp only [outc_val]; omega), mul_zero, mul_zero]

/-- The reference's last stage is the specification function. -/
theorem ref_eq
    (x0 : (⟨Cert.ReferenceIdeal.S8192x4096, .f32⟩ : BufTy).Contents (Elt Ideal)) (x1 : (⟨Cert.ReferenceIdeal.S4096x4096, .f32⟩ : BufTy).Contents (Elt Ideal))
    (x2 : (⟨Cert.ReferenceIdeal.S4096, .f32⟩ : BufTy).Contents (Elt Ideal)) (x3 : (⟨Cert.ReferenceIdeal.S80x4096, .f32⟩ : BufTy).Contents (Elt Ideal))
    (x4 : (⟨Cert.ReferenceIdeal.S80, .f32⟩ : BufTy).Contents (Elt Ideal)) :
    Cert.ReferenceIdeal.Read.val_main_v33 (F := Ideal) x0 x1 x2 x3 x4 = Cert.Spec.G x0 x1 x2 x3 x4 := by
  funext i
  obtain ⟨b, p, o, rfl⟩ : ∃ (b : Fin 8192) (p : Fin 8) (o : Fin 10), i = ix3 b p o := ⟨i 0, i 1, i 2, eq_ix3 i⟩
  rw [ref_at, G_apply]

end Cert.RefValue

end
-- ==== Proof.IdealEntry.lean ====
/-
  The idealized kernel's program up to its one region, and what the region finds.

  Before the region the program prepares the region's operands on the host: the eight diagonal 512×512 blocks of the
  first weight matrix are sliced out and stacked into one [8, 512, 512] array, the eight diagonal 10×512 blocks of the
  second likewise into [8, 10, 512], and the two bias vectors and the input are reshaped so that the module index is
  an axis of its own. None of these operations writes an argument array, so the region finds every argument as it was
  launched (`V_main_arg0 … V_main_arg4`); `V` names every buffer's contents at the region's entry, `iblk` the block
  of a window's array that a grid point works on, and `frame_of` turns a run that ends with the arrays where the
  pipeline library says into the frame claim: the five argument arrays end unchanged.
-/
import proofs.«165881_j29575144800944_1_alg».proof.Proof.Gen.KernelIdeal.Launch
import proofs.«165881_j29575144800944_1_alg».proof.Proof.Gen.KernelIdeal.Points
import Idealize.ShloMosaic.Lib.Pipeline.FrameBody

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The program up to the region -/

/-- Core `c`'s buffers when the region is entered: the launch contents after the host operations before it. -/
abbrev V (c : Dev nD) (b : Ref sig .tc) : Buf (Elt F) ((c : Thread nD τ).loc b) := StableHlo.after hostOps0 (fun b => m (c, b)) b

/-- Every host operation before the region writes a buffer the program already has: none allocates. -/
theorem hostOps0_fresh : (hostOps0 : List (HloOp τ sig (Elt F))).Forall fun op => op.fresh = ∅ := by
  simp only [List.Forall]; repeat' constructor

/-- The program is those host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every grid point, whether the pipeline fetched it
    there or not (where it did not, the block index has not moved since the fetch), for any proof data whose array is
    the region-entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run -/

/-- A run that ends with every array of the pipeline where the library computes it and every other buffer as the
    region found it leaves the five argument arrays as launched: no window stages an argument array (the windows stage
    the host-made copies), so each is one of the "other" buffers, which the region found as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

end Cert.KernelIdeal.Fr

end
-- ==== Proof.IdealBody.lean ====
/-
  The kernel body, run once on whole staging buffers.

  At a grid point the body treats the eight modules one after the other. For module `p` it reads slab `[:, p, :]` of the
  input block, block `p` of each stacked weight array and row `p` of each reshaped bias, computes the module's ten
  outputs on the block's 512 rows, and stores them into slab `[:, p, :]` of the output block. (Before each store it
  also reads the slab it is about to overwrite; that value is never used.) The eight slabs tile the output block, so
  after the body the output buffer is a function of the five input buffers alone: `out5`, the eight stores overlaid,
  the last one first. `sound_kernel` is the body's triple: the inputs are left as they were and the output buffer,
  whatever it held, ends at `out5` of them.
-/
import proofs.«165881_j29575144800944_1_alg».proof.Proof.Gen.KernelIdeal.Launch
import proofs.«165881_j29575144800944_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: module `p`'s slab of each buffer -/

abbrev rx0 : Rect S512x8x512 := Rect.unit (s := S512x8x512) ![0, 0, 0] S512x1x512.size inb_S512x8x512_S512x1x512_0_0_0
abbrev rw0 : Rect S8x512x512 := Rect.unit (s := S8x512x512) ![0, 0, 0] S1x512x512.size inb_S8x512x512_S1x512x512_0_0_0
abbrev rb0 : Rect S8x512 := Rect.unit (s := S8x512) ![0, 0] S1x512.size inb_S8x512_S1x512_0_0
abbrev ru0 : Rect S8x10x512 := Rect.unit (s := S8x10x512) ![0, 0, 0] S1x10x512.size inb_S8x10x512_S1x10x512_0_0_0
abbrev rc0 : Rect S8x10 := Rect.unit (s := S8x10) ![0, 0] S1x10.size inb_S8x10_S1x10_0_0
abbrev ro0 : Rect S512x8x10 := Rect.unit (s := S512x8x10) ![0, 0, 0] S512x1x10.size inb_S512x8x10_S512x1x10_0_0_0
abbrev rx1 : Rect S512x8x512 := Rect.unit (s := S512x8x512) ![0, 1, 0] S512x1x512.size inb_S512x8x512_S512x1x512_0_1_0
abbrev rw1 : Rect S8x512x512 := Rect.unit (s := S8x512x512) ![1, 0, 0] S1x512x512.size inb_S8x512x512_S1x512x512_1_0_0
abbrev rb1 : Rect S8x512 := Rect.unit (s := S8x512) ![1, 0] S1x512.size inb_S8x512_S1x512_1_0
abbrev ru1 : Rect S8x10x512 := Rect.unit (s := S8x10x512) ![1, 0, 0] S1x10x512.size inb_S8x10x512_S1x10x512_1_0_0
abbrev rc1 : Rect S8x10 := Rect.unit (s := S8x10) ![1, 0] S1x10.size inb_S8x10_S1x10_1_0
abbrev ro1 : Rect S512x8x10 := Rect.unit (s := S512x8x10) ![0, 1, 0] S512x1x10.size inb_S512x8x10_S512x1x10_0_1_0
abbrev rx2 : Rect S512x8x512 := Rect.unit (s := S512x8x512) ![0, 2, 0] S512x1x512.size inb_S512x8x512_S512x1x512_0_2_0
abbrev rw2 : Rect S8x512x512 := Rect.unit (s := S8x512x512) ![2, 0, 0] S1x512x512.size inb_S8x512x512_S1x512x512_2_0_0
abbrev rb2 : Rect S8x512 := Rect.unit (s := S8x512) ![2, 0] S1x512.size inb_S8x512_S1x512_2_0
abbrev ru2 : Rect S8x10x512 := Rect.unit (s := S8x10x512) ![2, 0, 0] S1x10x512.size inb_S8x10x512_S1x10x512_2_0_0
abbrev rc2 : Rect S8x10 := Rect.unit (s := S8x10) ![2, 0] S1x10.size inb_S8x10_S1x10_2_0
abbrev ro2 : Rect S512x8x10 := Rect.unit (s := S512x8x10) ![0, 2, 0] S512x1x10.size inb_S512x8x10_S512x1x10_0_2_0
abbrev rx3 : Rect S512x8x512 := Rect.unit (s := S512x8x512) ![0, 3, 0] S512x1x512.size inb_S512x8x512_S512x1x512_0_3_0
abbrev rw3 : Rect S8x512x512 := Rect.unit (s := S8x512x512) ![3, 0, 0] S1x512x512.size inb_S8x512x512_S1x512x512_3_0_0
abbrev rb3 : Rect S8x512 := Rect.unit (s := S8x512) ![3, 0] S1x512.size inb_S8x512_S1x512_3_0
abbrev ru3 : Rect S8x10x512 := Rect.unit (s := S8x10x512) ![3, 0, 0] S1x10x512.size inb_S8x10x512_S1x10x512_3_0_0
abbrev rc3 : Rect S8x10 := Rect.unit (s := S8x10) ![3, 0] S1x10.size inb_S8x10_S1x10_3_0
abbrev ro3 : Rect S512x8x10 := Rect.unit (s := S512x8x10) ![0, 3, 0] S512x1x10.size inb_S512x8x10_S512x1x10_0_3_0
abbrev rx4 : Rect S512x8x512 := Rect.unit (s := S512x8x512) ![0, 4, 0] S512x1x512.size inb_S512x8x512_S512x1x512_0_4_0
abbrev rw4 : Rect S8x512x512 := Rect.unit (s := S8x512x512) ![4, 0, 0] S1x512x512.size inb_S8x512x512_S1x512x512_4_0_0
abbrev rb4 : Rect S8x512 := Rect.unit (s := S8x512) ![4, 0] S1x512.size inb_S8x512_S1x512_4_0
abbrev ru4 : Rect S8x10x512 := Rect.unit (s := S8x10x512) ![4, 0, 0] S1x10x512.size inb_S8x10x512_S1x10x512_4_0_0
abbrev rc4 : Rect S8x10 := Rect.unit (s := S8x10) ![4, 0] S1x10.size inb_S8x10_S1x10_4_0
abbrev ro4 : Rect S512x8x10 := Rect.unit (s := S512x8x10) ![0, 4, 0] S512x1x10.size inb_S512x8x10_S512x1x10_0_4_0
abbrev rx5 : Rect S512x8x512 := Rect.unit (s := S512x8x512) ![0, 5, 0] S512x1x512.size inb_S512x8x512_S512x1x512_0_5_0
abbrev rw5 : Rect S8x512x512 := Rect.unit (s := S8x512x512) ![5, 0, 0] S1x512x512.size inb_S8x512x512_S1x512x512_5_0_0
abbrev rb5 : Rect S8x512 := Rect.unit (s := S8x512) ![5, 0] S1x512.size inb_S8x512_S1x512_5_0
abbrev ru5 : Rect S8x10x512 := Rect.unit (s := S8x10x512) ![5, 0, 0] S1x10x512.size inb_S8x10x512_S1x10x512_5_0_0
abbrev rc5 : Rect S8x10 := Rect.unit (s := S8x10) ![5, 0] S1x10.size inb_S8x10_S1x10_5_0
abbrev ro5 : Rect S512x8x10 := Rect.unit (s := S512x8x10) ![0, 5, 0] S512x1x10.size inb_S512x8x10_S512x1x10_0_5_0
abbrev rx6 : Rect S512x8x512 := Rect.unit (s := S512x8x512) ![0, 6, 0] S512x1x512.size inb_S512x8x512_S512x1x512_0_6_0
abbrev rw6 : Rect S8x512x512 := Rect.unit (s := S8x512x512) ![6, 0, 0] S1x512x512.size inb_S8x512x512_S1x512x512_6_0_0
abbrev rb6 : Rect S8x512 := Rect.unit (s := S8x512) ![6, 0] S1x512.size inb_S8x512_S1x512_6_0
abbrev ru6 : Rect S8x10x512 := Rect.unit (s := S8x10x512) ![6, 0, 0] S1x10x512.size inb_S8x10x512_S1x10x512_6_0_0
abbrev rc6 : Rect S8x10 := Rect.unit (s := S8x10) ![6, 0] S1x10.size inb_S8x10_S1x10_6_0
abbrev ro6 : Rect S512x8x10 := Rect.unit (s := S512x8x10) ![0, 6, 0] S512x1x10.size inb_S512x8x10_S512x1x10_0_6_0
abbrev rx7 : Rect S512x8x512 := Rect.unit (s := S512x8x512) ![0, 7, 0] S512x1x512.size inb_S512x8x512_S512x1x512_0_7_0
abbrev rw7 : Rect S8x512x512 := Rect.unit (s := S8x512x512) ![7, 0, 0] S1x512x512.size inb_S8x512x512_S1x512x512_7_0_0
abbrev rb7 : Rect S8x512 := Rect.unit (s := S8x512) ![7, 0] S1x512.size inb_S8x512_S1x512_7_0
abbrev ru7 : Rect S8x10x512 := Rect.unit (s := S8x10x512) ![7, 0, 0] S1x10x512.size inb_S8x10x512_S1x10x512_7_0_0
abbrev rc7 : Rect S8x10 := Rect.unit (s := S8x10) ![7, 0] S1x10.size inb_S8x10_S1x10_7_0
abbrev ro7 : Rect S512x8x10 := Rect.unit (s := S512x8x10) ![0, 7, 0] S512x1x10.size inb_S512x8x10_S512x1x10_0_7_0

/-! ## What the body leaves in the output buffer -/

/-- The output buffer after the body, from the five input buffers: its eight stores as pieces, the last first; piece
    `p` is module `p`'s arithmetic on the module's slabs of the inputs. -/
def out5 (x0 : Vec F S512x8x512 .f32) (x1 : Vec F S8x512x512 .bf16) (x2 : Vec F S8x512 .f32) (x3 : Vec F S8x10x512 .bf16) (x4 : Vec F S8x10 .f32) :
    Vec F S512x8x10 .f32 :=
  View.canon [
    ⟨ro7, k0_pay16 (View.ld x0 rx7) (View.ld x1 rw7) (View.ld x2 rb7) (View.ld x3 ru7) (View.ld x4 rc7)⟩,
    ⟨ro6, k0_pay15 (k0_pay13 (View.ld x0 rx6) (View.ld x1 rw6) (View.ld x2 rb6)) (k0_pay14 (View.ld x3 ru6)) (View.ld x4 rc6)⟩,
    ⟨ro5, k0_pay12 (k0_pay10 (View.ld x0 rx5)) (k0_pay11 (View.ld x1 rw5)) (View.ld x2 rb5) (View.ld x3 ru5) (View.ld x4 rc5)⟩,
    ⟨ro4, k0_pay9 (View.ld x0 rx4) (View.ld x1 rw4) (View.ld x2 rb4) (View.ld x3 ru4) (View.ld x4 rc4)⟩,
    ⟨ro3, k0_pay8 (View.ld x0 rx3) (View.ld x1 rw3) (View.ld x2 rb3) (View.ld x3 ru3) (View.ld x4 rc3)⟩,
    ⟨ro2, k0_pay7 (k0_pay5 (View.ld x0 rx2) (View.ld x1 rw2) (View.ld x2 rb2)) (k0_pay6 (View.ld x3 ru2)) (View.ld x4 rc2)⟩,
    ⟨ro1, k0_pay4 (k0_pay2 (View.ld x0 rx1)) (k0_pay3 (View.ld x1 rw1)) (View.ld x2 rb1) (View.ld x3 ru1) (View.ld x4 rc1)⟩,
    ⟨ro0, k0_pay1 (View.ld x0 rx0) (View.ld x1 rw0) (View.ld x2 rb0) (View.ld x3 ru0) (View.ld x4 rc0)⟩]

/-- The eight slabs `[:, p, :]` tile the output block, so they cover it. -/
theorem cover5 (p7 p6 p5 p4 p3 p2 p1 p0 : Vec F S512x1x10 .f32) (y : S512x8x10.Idx) :
    ∃ pc ∈ ([⟨ro7, p7⟩, ⟨ro6, p6⟩, ⟨ro5, p5⟩, ⟨ro4, p4⟩, ⟨ro3, p3⟩, ⟨ro2, p2⟩, ⟨ro1, p1⟩, ⟨ro0, p0⟩] : List (View.Piece (Elt F) S512x8x10 .f32)), y ∈ pc.1.set :=
  View.cover_of_tiled [⟨ro7, p7⟩, ⟨ro6, p6⟩, ⟨ro5, p5⟩, ⟨ro4, p4⟩, ⟨ro3, p3⟩, ⟨ro2, p2⟩, ⟨ro1, p1⟩, ⟨ro0, p0⟩] S512x1x10.size (by rfl) y

/-! ## The body's triple -/

set_option maxHeartbeats 4000000 in
/-- On whole staging buffers, the five inputs' at contents `x0 … x4` and the output's at anything, the body runs to the
    continuation with the inputs' as they were and the output's at `out5 x0 x1 x2 x3 x4`. -/
theorem sound_kernel (c : Dev nD) (E : Set ℕ) (i : grid0.Coords)
    (arg1 : Memref sig .tc .vmem S512x8x512 .f32) (harg1 : arg1.IsWhole) (arg2 : Memref sig .tc .vmem S8x512x512 .bf16) (harg2 : arg2.IsWhole)
    (arg3 : Memref sig .tc .vmem S8x512 .f32) (harg3 : arg3.IsWhole) (arg4 : Memref sig .tc .vmem S8x10x512 .bf16) (harg4 : arg4.IsWhole)
    (arg5 : Memref sig .tc .vmem S8x10 .f32) (harg5 : arg5.IsWhole) (arg6 : Memref sig .tc .vmem S512x8x10 .f32) (harg6 : arg6.IsWhole)
    (x0 : Vec F S512x8x512 .f32) (x1 : Vec F S8x512x512 .bf16) (x2 : Vec F S8x512 .f32) (x3 : Vec F S8x10x512 .bf16) (x4 : Vec F S8x10 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4)) -∗ K ⟨⟩))
      ⊢ wp frame (wpE (defs₀ (F := F)) Variants.none c none) E (cc0__readout_kernel i arg1 harg1 arg2 harg2 arg3 harg3 arg4 harg4 arg5 harg5 arg6 harg6) K := by
  simp only [cc0__readout_kernel_eq_skeleton]; unfold cc0__readout_kernel_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _ _ _ _ _ _ _ _)

end Cert.KernelIdeal.Fr

end
-- ==== Proof.IdealFrame.lean ====
/-
  The idealized kernel's frame: it runs to the end, nothing faults, and the argument arrays end as launched.

  The pipeline's proof data say, for each window and grid point, what the window's staging buffer holds after the
  body: an input's buffer still holds its block, and the output's holds `out5` of the five input blocks (the body's
  triple). With the class's plain invariant (the kernel keeps no scratch and no semaphore of its own) the library's
  frame run applies: the program terminates from any memory, and at the end every array of the pipeline is what the
  library computes from the proof data, every other buffer as the region found it. In particular the output array is
  the proof data's `arrAt 5`, which the value proof opens, and the five argument arrays are unchanged.
-/
import proofs.«165881_j29575144800944_1_alg».proof.Proof.IdealEntry
import proofs.«165881_j29575144800944_1_alg».proof.Proof.IdealBody

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- On core `c`: the arrays as the region finds them; after the body at point `t` each input's buffer at its block and
    the output's at `out5` of the five input blocks; the plain invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

/-- Each input's current staging buffer holds its block at every point, fetched there or not. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and at the end every
    array of the pipeline is what the library computes from the proof data, every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Fr

end
-- ==== Proof.ModuleValue.lean ====
/-
  One module's arithmetic, read at an index.

  The body treats its eight modules one after the other with the same operations: the module's slice of the
  rows, a 512 x 512 weight block, a bias row, a maximum with zero, a 10 x 512 weight block and a second bias row.
  `modOut` names that chain once, as a function of the five pieces loaded for a module; every payload chain of the
  body is `modOut` of its own five loads. At the ideal values `modOut` at row `r` and output `o` is the
  two-layer perceptron's value: the sum over the hidden units `k` of `max (Σ_j x[r,j] * W1[k,j] + b1[k]) 0 * W2[o,k]`,
  plus `b2[o]`.
-/
import proofs.«165881_j29575144800944_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.ModuleValue

open Cert.KernelIdeal Cert.KernelIdeal.Gen Idealize.ShloMosaic Idealize.ShloMosaic.ValueIdx

/-! ## The chain of one module, for every float instance -/

section AnyInstance
variable {F : FTy → Type} [FloatOps F]

/-- One module's ten outputs on the block's 512 rows, from the five pieces the body loads for it. -/
def modOut (xv : Vec F S512x1x512 .f32) (w1v : Vec F S1x512x512 .bf16) (b1v : Vec F S1x512 .f32)
    (w2v : Vec F S1x10x512 .bf16) (b2v : Vec F S1x10 .f32) : FVec F S512x1x10 .f32 :=
  k0_pay1 xv w1v b1v w2v b2v

/-- Module 0: the chain is one payload. -/
theorem pay1_eq (a : Vec F S512x1x512 .f32) (b : Vec F S1x512x512 .bf16) (c : Vec F S1x512 .f32)
    (d : Vec F S1x10x512 .bf16) (e : Vec F S1x10 .f32) :
    k0_pay1 a b c d e = modOut a b c d e := rfl

/-- Module 1: the row slice and the first weight block are prepared in the part before. -/
theorem pay4_eq (a : Vec F S512x1x512 .f32) (b : Vec F S1x512x512 .bf16) (c : Vec F S1x512 .f32)
    (d : Vec F S1x10x512 .bf16) (e : Vec F S1x10 .f32) :
    k0_pay4 (k0_pay2 a) (k0_pay3 b) c d e = modOut a b c d e := rfl

/-- Module 2: the hidden layer is computed in the part before, the second weight block is prepared there too. -/
theorem pay7_eq (a : Vec F S512x1x512 .f32) (b : Vec F S1x512x512 .bf16) (c : Vec F S1x512 .f32)
    (d : Vec F S1x10x512 .bf16) (e : Vec F S1x10 .f32) :
    k0_pay7 (k0_pay5 a b c) (k0_pay6 d) e = modOut a b c d e := rfl

/-- Module 3: one payload. -/
theorem pay8_eq (a : Vec F S512x1x512 .f32) (b : Vec F S1x512x512 .bf16) (c : Vec F S1x512 .f32)
    (d : Vec F S1x10x512 .bf16) (e : Vec F S1x10 .f32) :
    k0_pay8 a b c d e = modOut a b c d e := rfl

/-- Module 4: one payload. -/
theorem pay9_eq (a : Vec F S512x1x512 .f32) (b : Vec F S1x512x512 .bf16) (c : Vec F S1x512 .f32)
    (d : Vec F S1x10x512 .bf16) (e : Vec F S1x10 .f32) :
    k0_pay9 a b c d e = modOut a b c d e := rfl

/-- Module 5: cut as module 1 is. -/
theorem pay12_eq (a : Vec F S512x1x512 .f32) (b : Vec F S1x512x512 .bf16) (c : Vec F S1x512 .f32)
    (d : Vec F S1x10x512 .bf16) (e : Vec F S1x10 .f32) :
    k0_pay12 (k0_pay10 a) (k0_pay11 b) c d e = modOut a b c d e := rfl

/-- Module 6: cut as module 2 is. -/
theorem pay15_eq (a : Vec F S512x1x512 .f32) (b : Vec F S1x512x512 .bf16) (c : Vec F S1x512 .f32)
    (d : Vec F S1x10x512 .bf16) (e : Vec F S1x10 .f32) :
    k0_pay15 (k0_pay13 a b c) (k0_pay14 d) e = modOut a b c d e := rfl

/-- Module 7: one payload. -/
theorem pay16_eq (a : Vec F S512x1x512 .f32) (b : Vec F S1x512x512 .bf16) (c : Vec F S1x512 .f32)
    (d : Vec F S1x10x512 .bf16) (e : Vec F S1x10 .f32) :
    k0_pay16 a b c d e = modOut a b c d e := rfl

end AnyInstance

/-! ## A unit axis in the middle, dropped or added by a shape cast -/

section Layout
variable {α : Type}

/-- An `[a, 1, b]` array cast to `[a, b]` reads, at `(i, j)`, the operand at `(i, 0, j)`: the two row-major
    positions are `(i * 1 + 0) * b + j` and `i * b + j`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Layout

/-! ## The two products at an index

Both dimension records contract axis 1 of both operands and keep axis 0 of each: the left operand is read at
(row of the result, contraction position), the right operand at (column of the result, contraction position). -/

/-- First product, left operand, axis 0: the result's row. -/
theorem lhs_hidden_0 (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide), dif_pos (show (0 : Fin S512x512.rank) ∈ dot_S512x512_S512x512_S512x512_1_1_0_0_n_n.lhsNonContracting by decide)]
  rfl
/-- First product, left operand, axis 1: the contraction position. -/
theorem lhs_hidden_1 (i : S512x512.Idx) (q : dot_S512x512_S512x512_S512x512_1_1_0_0_n_n.contr.Idx) :
    (dot_S512x512_S512x512_S512x512_1_1_0_0_n_n.lhsIdx i q 1).val = (q ⟨0, by decide⟩).val :=
  dot_S512x512_S512x512_S512x512_1_1_0_0_n_n.lhsIdx_val_of_single rfl i q
/-- First product, right operand, axis 0: the result's column. -/
theorem rhs_hidden_0 (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide), dif_pos (show (0 : Fin S512x512.rank) ∈ dot_S512x512_S512x512_S512x512_1_1_0_0_n_n.rhsNonContracting by decide)]
  rfl
/-- First product, right operand, axis 1: the contraction position. -/
theorem rhs_hidden_1 (i : S512x512.Idx) (q : dot_S512x512_S512x512_S512x512_1_1_0_0_n_n.contr.Idx) :
    (dot_S512x512_S512x512_S512x512_1_1_0_0_n_n.rhsIdx i q 1).val = (q ⟨0, by decide⟩).val :=
  dot_S512x512_S512x512_S512x512_1_1_0_0_n_n.rhsIdx_val_of_single rfl i q

/-- The first product into the zero accumulator, at `(r, k)`: the sum over `j` of the left operand at `(r, j)` times
    the right operand at `(k, j)`. -/
theorem matmul_hidden_apply (A B : FVec Ideal S512x512 .bf16) (r k : Fin 512) :
    matmul (F := Ideal) dot_S512x512_S512x512_S512x512_1_1_0_0_n_n none A B (constant (F := Ideal) S512x512 .f32 0x00000000#32) (ix2 r k)
      = ∑ j : Fin 512, A (ix2 r j) * B (ix2 k j) := by
  simp only [matmul]
  rw [Ideal.matmul_constant_zero_apply, ← Equiv.sum_comp (contrEquiv1 dot_S512x512_S512x512_S512x512_1_1_0_0_n_n 512 rfl rfl).symm]
  refine Finset.sum_congr rfl fun j _ => ?_
  have hk := contrEquiv1_symm_val dot_S512x512_S512x512_S512x512_1_1_0_0_n_n 512 rfl rfl j
  have el : dot_S512x512_S512x512_S512x512_1_1_0_0_n_n.lhsIdx (ix2 r k) ((contrEquiv1 dot_S512x512_S512x512_S512x512_1_1_0_0_n_n 512 rfl rfl).symm j) = ix2 r j := funext fun a => Fin.ext (by
    match a with
    | ⟨0, _⟩ => exact lhs_hidden_0 _ _
    | ⟨1, _⟩ => exact (lhs_hidden_1 _ _).trans hk)
  have er : dot_S512x512_S512x512_S512x512_1_1_0_0_n_n.rhsIdx (ix2 r k) ((contrEquiv1 dot_S512x512_S512x512_S512x512_1_1_0_0_n_n 512 rfl rfl).symm j) = ix2 k j := funext fun a => Fin.ext (by
    match a with
    | ⟨0, _⟩ => exact rhs_hidden_0 _ _
    | ⟨1, _⟩ => exact (rhs_hidden_1 _ _).trans hk)
  rw [el, er]

/-- Second product, left operand, axis 0: the result's row. -/
theorem lhs_out_0 (i : S512x10.Idx) (q : dot_S512x512_S10x512_S512x10_1_1_0_0_n_n.contr.Idx) :
    (dot_S512x512_S10x512_S512x10_1_1_0_0_n_n.lhsIdx i q 0).val = (i 0).val := by
  unfold DotDims.lhsIdx
  rw [dif_neg (show ¬(0 : Fin S512x512.rank) ∈ dot_S512x512_S10x512_S512x10_1_1_0_0_n_n.lhsBatch by decide), dif_pos (show (0 : Fin S512x512.rank) ∈ dot_S512x512_S10x512_S512x10_1_1_0_0_n_n.lhsNonContracting by decide)]
  rfl
/-- Second product, left operand, axis 1: the contraction position. -/
theorem lhs_out_1 (i : S512x10.Idx) (q : dot_S512x512_S10x512_S512x10_1_1_0_0_n_n.contr.Idx) :
    (dot_S512x512_S10x512_S512x10_1_1_0_0_n_n.lhsIdx i q 1).val = (q ⟨0, by decide⟩).val :=
  dot_S512x512_S10x512_S512x10_1_1_0_0_n_n.lhsIdx_val_of_single rfl i q
/-- Second product, right operand, axis 0: the result's column. -/
theorem rhs_out_0 (i : S512x10.Idx) (q : dot_S512x512_S10x512_S512x10_1_1_0_0_n_n.contr.Idx) :
    (dot_S512x512_S10x512_S512x10_1_1_0_0_n_n.rhsIdx i q 0).val = (i 1).val := by
  unfold DotDims.rhsIdx
  rw [dif_neg (show ¬(0 : Fin S10x512.rank) ∈ dot_S512x512_S10x512_S512x10_1_1_0_0_n_n.rhsBatch by decide), dif_pos (show (0 : Fin S10x512.rank) ∈ dot_S512x512_S10x512_S512x10_1_1_0_0_n_n.rhsNonContracting by decide)]
  rfl
/-- Second product, right operand, axis 1: the contraction position. -/
theorem rhs_out_1 (i : S512x10.Idx) (q : dot_S512x512_S10x512_S512x10_1_1_0_0_n_n.contr.Idx) :
    (dot_S512x512_S10x512_S512x10_1_1_0_0_n_n.rhsIdx i q 1).val = (q ⟨0, by decide⟩).val :=
  dot_S512x512_S10x512_S512x10_1_1_0_0_n_n.rhsIdx_val_of_single rfl i q

/-- The second product into the zero accumulator, at `(r, o)`: the sum over `k` of the left operand at `(r, k)` times
    the right operand at `(o, k)`. -/
theorem matmul_out_apply (A : FVec Ideal S512x512 .bf16) (B : FVec Ideal S10x512 .bf16) (r : Fin 512) (o : Fin 10) :
    matmul (F := Ideal) dot_S512x512_S10x512_S512x10_1_1_0_0_n_n none A B (constant (F := Ideal) S512x10 .f32 0x00000000#32) (ix2 r o)
      = ∑ k : Fin 512, A (ix2 r k) * B (ix2 o k) := by
  simp only [matmul]
  rw [Ideal.matmul_constant_zero_apply, ← Equiv.sum_comp (contrEquiv1 dot_S512x512_S10x512_S512x10_1_1_0_0_n_n 512 rfl rfl).symm]
  refine Finset.sum_congr rfl fun k _ => ?_
  have hk := contrEquiv1_symm_val dot_S512x512_S10x512_S512x10_1_1_0_0_n_n 512 rfl rfl k
  have el : dot_S512x512_S10x512_S512x10_1_1_0_0_n_n.lhsIdx (ix2 r o) ((contrEquiv1 dot_S512x512_S10x512_S512x10_1_1_0_0_n_n 512 rfl rfl).symm k) = ix2 r k := funext fun a => Fin.ext (by
    match a with
    | ⟨0, _⟩ => exact lhs_out_0 _ _
    | ⟨1, _⟩ => exact (lhs_out_1 _ _).trans hk)
  have er : dot_S512x512_S10x512_S512x10_1_1_0_0_n_n.rhsIdx (ix2 r o) ((contrEquiv1 dot_S512x512_S10x512_S512x10_1_1_0_0_n_n 512 rfl rfl).symm k) = ix2 o k := funext fun a => Fin.ext (by
    match a with
    | ⟨0, _⟩ => exact rhs_out_0 _ _
    | ⟨1, _⟩ => exact (rhs_out_1 _ _).trans hk)
  rw [el, er]

/-! ## One module's output at a row and an output unit, at the ideal values -/

/-- The word of the maximum's second operand is the extended real zero. -/
theorem relu_floor : Scalar.ofBits (F := Ideal) .f32 0x00000000#32 = (0 : EReal) :=
  Ideal.ofBits_zero_f32

/-- The module's output at row `r` and output unit `o`: every format change is the identity on extended reals, each
    shape cast and broadcast reads one element of its operand, and the two products are sums over the contracted
    axis. -/
theorem modOut_apply (xv : Vec Ideal S512x1x512 .f32) (w1v : Vec Ideal S1x512x512 .bf16) (b1v : Vec Ideal S1x512 .f32)
    (w2v : Vec Ideal S1x10x512 .bf16) (b2v : Vec Ideal S1x10 .f32) (r : Fin 512) (o : Fin 10) :
    modOut (F := Ideal) xv w1v b1v w2v b2v (ix3 r 0 o)
      = (∑ k : Fin 512, max ((∑ j : Fin 512, (xv (ix3 r 0 j) : EReal) * (w1v (ix3 0 k j) : EReal)) + (b1v (ix2 0 k) : EReal)) 0
            * (w2v (ix3 0 o k) : EReal)) + (b2v (ix2 0 o) : EReal) := by
  unfold modOut k0_pay1
  rw [shapeCast_ab_a1b_apply, addf_apply, matmul_out_apply, broadcastTo_1b_ab_apply, shapeCast_a_1a_apply,
    shapeCast_1a_a_apply]
  refine congrArg (· + (b2v (ix2 0 o) : EReal)) (Finset.sum_congr rfl fun k _ => ?_)
  rw [truncf_apply, maximumf_apply, addf_apply, matmul_hidden_apply, broadcastTo_1b_ab_apply, shapeCast_a_1a_apply,
    shapeCast_1a_a_apply, broadcast_apply, relu_floor, shapeCast_1ab_ab_apply]
  refine congrArg (fun t => max (t + (b1v (ix2 0 k) : EReal)) 0 * (w2v (ix3 0 o k) : EReal))
    (Finset.sum_congr rfl fun j _ => ?_)
  rw [truncf_apply, shapeCast_a1b_ab_apply, shapeCast_1ab_ab_apply]

end Cert.KernelIdeal.ModuleValue

end
-- ==== Proof.SlabValue.lean ====
/-
  One module's slab of the five blocks, through the module's arithmetic.

  At a grid point the body hands module `q` five slabs: rows `[:, q, :]` of the input block, block `q` of each stacked
  weight array and row `q` of each bias array. A slab of unit width at offset `q` reads the block at coordinate `q` on
  that axis (`ld_mid`, `ld_lead3`, `ld_lead2`), so the module's output at row `r` and output unit `o` is the two-layer
  sum read off the five blocks at module `q`'s coordinates (`slab_of_reads`): over the hidden units `k`, the positive
  part of `Σ_j x[r, q, j] · W1[q, k, j] + b1[q, k]` times `W2[q, o, k]`, plus `b2[q, o]`.
-/
import proofs.«165881_j29575144800944_1_alg».proof.Proof.ModuleValue

noncomputable section
namespace Cert.KernelIdeal.Slab
open Cert.KernelIdeal Cert.KernelIdeal.Gen Cert.KernelIdeal.ModuleValue Idealize.ShloMosaic Idealize.ShloMosaic.ValueIdx

/-- A slab of unit width at offset `q` on the middle axis, read at `(r, ·, j)`, is the block at `(r, q, j)`. -/
theorem ld_mid {a n b : ℕ} {e : EltTy} (X : (⟨3, ![a, n, b]⟩ : Shape).Idx → Elt Ideal e) (q : ℕ) (hq : q < n)
    (inb : ∀ d, (![0, q, 0] : Fin 3 → ℕ) d + (![a, 1, b] : Fin 3 → ℕ) d ≤ (⟨3, ![a, n, b]⟩ : Shape).size d)
    (r : Fin a) (u : Fin 1) (j : Fin b) :
    View.ld X (Rect.unit (s := ⟨3, ![a, n, b]⟩) ![0, q, 0] ![a, 1, b] inb) (ix3 r u j) = X (ix3 r ⟨q, hq⟩ j) := by
  show X _ = X _
  congr 1
  funext d
  apply Fin.ext
  have hu : u.val = 0 := by omega
  match d with
  | ⟨0, _⟩ => show 0 + 1 * r.val = r.val; omega
  | ⟨1, _⟩ => show q + 1 * u.val = q; omega
  | ⟨2, _⟩ => show 0 + 1 * j.val = j.val; omega

/-- A slab of unit width at offset `q` on the leading axis of a rank-3 block. -/
theorem ld_lead3 {n a b : ℕ} {e : EltTy} (X : (⟨3, ![n, a, b]⟩ : Shape).Idx → Elt Ideal e) (q : ℕ) (hq : q < n)
    (inb : ∀ d, (![q, 0, 0] : Fin 3 → ℕ) d + (![1, a, b] : Fin 3 → ℕ) d ≤ (⟨3, ![n, a, b]⟩ : Shape).size d)
    (u : Fin 1) (i : Fin a) (j : Fin b) :
    View.ld X (Rect.unit (s := ⟨3, ![n, a, b]⟩) ![q, 0, 0] ![1, a, b] inb) (ix3 u i j) = X (ix3 ⟨q, hq⟩ i j) := by
  show X _ = X _
  congr 1
  funext d
  apply Fin.ext
  have hu : u.val = 0 := by omega
  match d with
  | ⟨0, _⟩ => show q + 1 * u.val = q; omega
  | ⟨1, _⟩ => show 0 + 1 * i.val = i.val; omega
  | ⟨2, _⟩ => show 0 + 1 * j.val = j.val; omega

/-- A row at offset `q` of a rank-2 block. -/
theorem ld_lead2 {n a : ℕ} {e : EltTy} (X : (⟨2, ![n, a]⟩ : Shape).Idx → Elt Ideal e) (q : ℕ) (hq : q < n)
    (inb : ∀ d, (![q, 0] : Fin 2 → ℕ) d + (![1, a] : Fin 2 → ℕ) d ≤ (⟨2, ![n, a]⟩ : Shape).size d)
    (u : Fin 1) (i : Fin a) :
    View.ld X (Rect.unit (s := ⟨2, ![n, a]⟩) ![q, 0] ![1, a] inb) (ix2 u i) = X (ix2 ⟨q, hq⟩ i) := by
  show X _ = X _
  congr 1
  funext d
  apply Fin.ext
  have hu : u.val = 0 := by omega
  match d with
  | ⟨0, _⟩ => show q + 1 * u.val = q; omega
  | ⟨1, _⟩ => show 0 + 1 * i.val = i.val; omega

/-- Module `q`'s outputs on a block's rows, from module `q`'s slabs of the five blocks: the two-layer sum read off
    the blocks at module `q`'s coordinates. -/
theorem slab_of_reads (xb : Vec Ideal S512x8x512 .f32) (w1b : Vec Ideal S8x512x512 .bf16) (b1b : Vec Ideal S8x512 .f32)
    (w2b : Vec Ideal S8x10x512 .bf16) (b2b : Vec Ideal S8x10 .f32) (q : ℕ) (hq : q < 8)
    (inbx : ∀ d, (![0, q, 0] : Fin 3 → ℕ) d + S512x1x512.size d ≤ S512x8x512.size d)
    (inbw : ∀ d, (![q, 0, 0] : Fin 3 → ℕ) d + S1x512x512.size d ≤ S8x512x512.size d)
    (inbb : ∀ d, (![q, 0] : Fin 2 → ℕ) d + S1x512.size d ≤ S8x512.size d)
    (inbu : ∀ d, (![q, 0, 0] : Fin 3 → ℕ) d + S1x10x512.size d ≤ S8x10x512.size d)
    (inbc : ∀ d, (![q, 0] : Fin 2 → ℕ) d + S1x10.size d ≤ S8x10.size d)
    (r : Fin 512) (o : Fin 10) :
    modOut (F := Ideal) (View.ld xb (Rect.unit (s := S512x8x512) ![0, q, 0] S512x1x512.size inbx))
        (View.ld w1b (Rect.unit (s := S8x512x512) ![q, 0, 0] S1x512x512.size inbw))
        (View.ld b1b (Rect.unit (s := S8x512) ![q, 0] S1x512.size inbb))
        (View.ld w2b (Rect.unit (s := S8x10x512) ![q, 0, 0] S1x10x512.size inbu))
        (View.ld b2b (Rect.unit (s := S8x10) ![q, 0] S1x10.size inbc)) (ix3 r 0 o)
      = (∑ k : Fin 512, max ((∑ j : Fin 512, (xb (ix3 r ⟨q, hq⟩ j) : EReal) * (w1b (ix3 ⟨q, hq⟩ k j) : EReal)) + (b1b (ix2 ⟨q, hq⟩ k) : EReal)) 0
            * (w2b (ix3 ⟨q, hq⟩ o k) : EReal)) + (b2b (ix2 ⟨q, hq⟩ o) : EReal) := by
  rw [modOut_apply]
  rw [ld_lead2 b2b q hq inbc 0 o]
  refine congrArg (· + (b2b (ix2 ⟨q, hq⟩ o) : EReal)) (Finset.sum_congr rfl fun k _ => ?_)
  rw [ld_lead2 b1b q hq inbb 0 k, ld_lead3 w2b q hq inbu 0 o k]
  refine congrArg (fun s => max (s + (b1b (ix2 ⟨q, hq⟩ k) : EReal)) 0 * (w2b (ix3 ⟨q, hq⟩ o k) : EReal)) (Finset.sum_congr rfl fun j _ => ?_)
  rw [ld_mid xb q hq inbx r 0 j, ld_lead3 w1b q hq inbw 0 k j]

end Cert.KernelIdeal.Slab
end
-- ==== Proof.BlockReads.lean ====
/-
  Where each window's block sits in its array, in coordinates.

  The grid has one axis of sixteen points. Point `t` works on rows `512 t … 512 t + 511` of the input as reshaped to
  [8192, 8, 512] and of the output [8192, 8, 10]; the two stacked weight arrays and the two reshaped bias arrays are one
  block each, the same at every point. So a block read at `(r, p, j)` is the array at `(512 t + r, p, j)` for the
  input, the array at the same index for the four others, and the output's block `t` is the rows in that range.
-/
import proofs.«165881_j29575144800944_1_alg».proof.Proof.IdealEntry
import Idealize.ShloMosaic.Lib.ValueIdx
import Idealize.ShloMosaic.Lib.Pipeline.Value

noncomputable section

namespace Cert.KernelIdeal.BlockReads

open Cert.KernelIdeal Cert.KernelIdeal.Gen Cert.KernelIdeal.Fr Idealize.ShloMosaic Idealize.ShloMosaic.TcCoe
  Idealize.ShloMosaic.ValueIdx Idealize.SL.Sem

variable (m : (ℓ : Loc nD τ sig) → Buf (Elt Ideal) ℓ)

/-! ## The rows of a grid point -/

/-- Row `r` of grid point `t`'s block is row `512 t + r` of the array. -/
def row (t : Fin cfg0.N) (r : Fin 512) : Fin 8192 :=
  ⟨t.val * 512 + r.val, by have h : t.val < grid0.N := t.isLt; have := N_0; omega⟩

theorem row_val (t : Fin cfg0.N) (r : Fin 512) : (row t r).val = t.val * 512 + r.val := rfl

/-! ## The printed index maps, decided once over the grid -/

/-- The input's and the output's block index is `(t, 0, 0)`; every other window's is zero on every axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-! ## The input windows' blocks read at an index -/

/-- The input's block at point `t`, read at `(r, p, j)`, is the array at `(512 t + r, p, j)`. -/
theorem iblk_x (c : Dev nD) (t : Fin cfg0.N) (r : Fin 512) (p : Fin 8) (j : Fin 512) :
    (iblk m c 0 t : S512x8x512.Idx → EReal) (ix3 r p j)
      = (V m c main_v38 : S8192x8x512.Idx → EReal) (ix3 (row t r) p j) := by
  obtain ⟨e0, e1, e2, -⟩ := idx_facts t
  unfold iblk
  show V m c main_v38 (((cfg0.win 0).blk t).view.emb (ix3 r p j)) = V m c main_v38 (ix3 (row t r) p j)
  refine congrArg (V m c main_v38) ?_
  funext a; apply Fin.ext
  match a with
  | ⟨0, _⟩ => show win0_0.index t (0 : Fin 3) * 512 + 1 * r.val = t.val * 512 + r.val; omega
  | ⟨1, _⟩ => show win0_0.index t (1 : Fin 3) * 8 + 1 * p.val = p.val; omega
  | ⟨2, _⟩ => show win0_0.index t (2 : Fin 3) * 512 + 1 * j.val = j.val; omega

/-- The first weight array is one block: read at `(p, k, j)` it is the array there. -/
theorem iblk_w1 (c : Dev nD) (t : Fin cfg0.N) (p : Fin 8) (k j : Fin 512) :
    (iblk m c 1 t : S8x512x512.Idx → EReal) (ix3 p k j)
      = (V m c main_v17 : S8x512x512.Idx → EReal) (ix3 p k j) := by
  obtain ⟨-, -, -, e0, e1, e2, -⟩ := idx_facts t
  unfold iblk
  show V m c main_v17 (((cfg0.win 1).blk t).view.emb (ix3 p k j)) = V m c main_v17 (ix3 p k j)
  refine congrArg (V m c main_v17) ?_
  funext a; apply Fin.ext
  match a with
  | ⟨0, _⟩ => show win0_1.index t (0 : Fin 3) * 8 + 1 * p.val = p.val; omega
  | ⟨1, _⟩ => show win0_1.index t (1 : Fin 3) * 512 + 1 * k.val = k.val; omega
  | ⟨2, _⟩ => show win0_1.index t (2 : Fin 3) * 512 + 1 * j.val = j.val; omega

/-- The first bias array is one block: read at `(p, k)` it is the array there. -/
theorem iblk_b1 (c : Dev nD) (t : Fin cfg0.N) (p : Fin 8) (k : Fin 512) :
    (iblk m c 2 t : S8x512.Idx → EReal) (ix2 p k) = (V m c main_v36 : S8x512.Idx → EReal) (ix2 p k) := by
  obtain ⟨-, -, -, -, -, -, e0, e1, -⟩ := idx_facts t
  unfold iblk
  show V m c main_v36 (((cfg0.win 2).blk t).view.emb (ix2 p k)) = V m c main_v36 (ix2 p k)
  refine congrArg (V m c main_v36) ?_
  funext a; apply Fin.ext
  match a with
  | ⟨0, _⟩ => show win0_2.index t (0 : Fin 2) * 8 + 1 * p.val = p.val; omega
  | ⟨1, _⟩ => show win0_2.index t (1 : Fin 2) * 512 + 1 * k.val = k.val; omega

/-- The second weight array is one block: read at `(p, o, k)` it is the array there. -/
theorem iblk_w2 (c : Dev nD) (t : Fin cfg0.N) (p : Fin 8) (o : Fin 10) (k : Fin 512) :
    (iblk m c 3 t : S8x10x512.Idx → EReal) (ix3 p o k)
      = (V m c main_v35 : S8x10x512.Idx → EReal) (ix3 p o k) := by
  obtain ⟨-, -, -, -, -, -, -, -, e0, e1, e2, -⟩ := idx_facts t
  unfold iblk
  show V m c main_v35 (((cfg0.win 3).blk t).view.emb (ix3 p o k)) = V m c main_v35 (ix3 p o k)
  refine congrArg (V m c main_v35) ?_
  funext a; apply Fin.ext
  match a with
  | ⟨0, _⟩ => show win0_3.index t (0 : Fin 3) * 8 + 1 * p.val = p.val; omega
  | ⟨1, _⟩ => show win0_3.index t (1 : Fin 3) * 10 + 1 * o.val = o.val; omega
  | ⟨2, _⟩ => show win0_3.index t (2 : Fin 3) * 512 + 1 * k.val = k.val; omega

/-- The second bias array is one block: read at `(p, o)` it is the array there. -/
theorem iblk_b2 (c : Dev nD) (t : Fin cfg0.N) (p : Fin 8) (o : Fin 10) :
    (iblk m c 4 t : S8x10.Idx → EReal) (ix2 p o) = (V m c main_v37 : S8x10.Idx → EReal) (ix2 p o) := by
  obtain ⟨-, -, -, -, -, -, -, -, -, -, -, e0, e1, -⟩ := idx_facts t
  unfold iblk
  show V m c main_v37 (((cfg0.win 4).blk t).view.emb (ix2 p o)) = V m c main_v37 (ix2 p o)
  refine congrArg (V m c main_v37) ?_
  funext a; apply Fin.ext
  match a with
  | ⟨0, _⟩ => show win0_4.index t (0 : Fin 2) * 8 + 1 * p.val = p.val; omega
  | ⟨1, _⟩ => show win0_4.index t (1 : Fin 2) * 10 + 1 * o.val = o.val; omega

/-! ## The output window's blocks in the array -/

/-- The output's block at point `t` places its index `(r, p, o)` at `(512 t + r, p, o)` of the array. -/
theorem blk5_emb (t : Fin cfg0.N) (r : Fin 512) (p : Fin 8) (o : Fin 10) :
    ((cfg0.win 5).blk t).view.emb (ix3 r p o : S512x8x10.Idx) = (ix3 (row t r) p o : S8192x8x10.Idx) := by
  obtain ⟨-, -, -, -, -, -, -, -, -, -, -, -, -, e0, e1, e2⟩ := idx_facts t
  funext a; apply Fin.ext
  match a with
  | ⟨0, _⟩ => show win0_5.index t (0 : Fin 3) * 512 + 1 * r.val = t.val * 512 + r.val; omega
  | ⟨1, _⟩ => show win0_5.index t (1 : Fin 3) * 8 + 1 * p.val = p.val; omega
  | ⟨2, _⟩ => show win0_5.index t (2 : Fin 3) * 10 + 1 * o.val = o.val; omega

/-- An index of the output array is in point `t`'s block iff its row is one of the point's 512 rows: on the other two
    axes the block is the whole extent. -/
theorem mem_blk5 (t : Fin cfg0.N) (i : S8192x8x10.Idx) :
    i ∈ ((cfg0.win 5).blk t).view.set ↔ t.val * 512 ≤ (i 0).val ∧ (i 0).val < t.val * 512 + 512 := by
  obtain ⟨-, -, -, -, -, -, -, -, -, -, -, -, -, e0, e1, e2⟩ := idx_facts t
  show i ∈ ((View.whole main_v39).slice (win0_5.rect t)).set ↔ _
  rw [View.set_slice_whole, Rect.mem_set_unit]
  constructor
  · intro h
    have b0 : win0_5.index t (0 : Fin 3) * 512 ≤ (i 0).val ∧ (i 0).val < win0_5.index t (0 : Fin 3) * 512 + 512 := h 0
    omega
  · intro h a
    match a with
    | ⟨0, _⟩ => show win0_5.index t (0 : Fin 3) * 512 ≤ (i 0).val ∧ (i 0).val < win0_5.index t (0 : Fin 3) * 512 + 512; omega
    | ⟨1, _⟩ => show win0_5.index t (1 : Fin 3) * 8 ≤ (i 1).val ∧ (i 1).val < win0_5.index t (1 : Fin 3) * 8 + 8; have h1 : (i 1).val < 8 := (i 1).isLt; omega
    | ⟨2, _⟩ => show win0_5.index t (2 : Fin 3) * 10 ≤ (i 2).val ∧ (i 2).val < win0_5.index t (2 : Fin 3) * 10 + 10; have h2 : (i 2).val < 10 := (i 2).isLt; omega

/-- Every index of the output array is in the block of a point that writes its block back: the point `⌊row / 512⌋`. -/
theorem cover5_arr (i : S8192x8x10.Idx) :
    ∃ t : Fin cfg0.N, (cfg0.win 5).flush t = true ∧ i ∈ ((cfg0.win 5).blk t).view.set := by
  have hi : (i 0).val < 8192 := (i 0).isLt
  have hN : (i 0).val / 512 < grid0.N := by rw [N_0]; omega
  refine ⟨⟨(i 0).val / 512, hN⟩, flush0_5 _, ?_⟩
  rw [mem_blk5]
  show (i 0).val / 512 * 512 ≤ (i 0).val ∧ (i 0).val < (i 0).val / 512 * 512 + 512
  omega

end Cert.KernelIdeal.BlockReads

end
-- ==== Proof.HostBlocks.lean ====
/-
  What the region finds in its five operand arrays, index by index, over the extended reals.

  Before the region the host cuts the eight diagonal 512×512 blocks out of the first weight matrix and the eight
  diagonal 10×512 blocks out of the second, gives each a leading unit axis, lays the eight end to end along that axis
  and changes the format (over the extended reals a format change is the identity); the two bias vectors and the input
  are reshaped so that the module index is an axis of its own. Entry (p, k, j) of the stacked first weights is
  therefore entry (512 p + k, 512 p + j) of the matrix, entry (p, o, k) of the stacked second weights is entry
  (10 p + o, 512 p + k), and the reshaped arrays read the flat ones at 512 p + k, 10 p + o and (b, 512 p + j).

  The pure statements come first: a reshape, a block with a leading unit axis, and a stack of eight unit pieces, each
  read at an index given by its coordinates. Then each host-made array is written as those operations applied to the
  launch contents and read with them. For the two stacks the sixteen cutting operations are run first and their
  eight results named, so that the stack is a concatenation of eight named pieces.
-/
import proofs.«165881_j29575144800944_1_alg».proof.Proof.IdealEntry
import proofs.«165881_j29575144800944_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostBlocks

open Cert.KernelIdeal Cert.KernelIdeal.Gen Cert.KernelIdeal.Fr Cert.Spec
open Idealize.ShloMosaic Idealize.ShloMosaic.TcCoe Idealize.ShloMosaic.ValueIdx Idealize.SL.Sem

/-! ## Reshapes, blocks and stacks read at an index -/

section Pure
variable {α : Type}

/-- Row b of the [8192, 4096] array seen as [8192, 8, 512]: entry (b, p, j) is entry (b, 512 p + j). -/
theorem reshape_x (y : S8192x4096.Idx → α) (b : Fin 8192) (p : Fin 8) (j : Fin 512) :
    shapeCast S8192x8x512 y shapeCasts_S8192x4096_S8192x8x512 (ix3 b p j) = y (ix2 b (col p j)) :=
  shapeCast_apply y shapeCasts_S8192x4096_S8192x8x512 (ix3 b p j) (ix2 b (col p j))
    (by rw [Shape.rowMajor_val_two, Shape.rowMajor_val_three]
        show b.val * 4096 + (p.val * 512 + j.val) = (b.val * 8 + p.val) * 512 + j.val
        omega)

/-- The [4096] vector seen as [8, 512]: entry (p, k) is entry 512 p + k. -/
theorem reshape_b1 (y : S4096.Idx → α) (p : Fin 8) (k : Fin 512) :
    shapeCast S8x512 y shapeCasts_S4096_S8x512 (ix2 p k) = y (ix1 (col p k)) :=
  shapeCast_apply y shapeCasts_S4096_S8x512 (ix2 p k) (ix1 (col p k))
    (by rw [Shape.rowMajor_val_one, Shape.rowMajor_val_two]
        show p.val * 512 + k.val = p.val * 512 + k.val
        rfl)

/-- The [80] vector seen as [8, 10]: entry (p, o) is entry 10 p + o. -/
theorem reshape_b2 (y : S80.Idx → α) (p : Fin 8) (o : Fin 10) :
    shapeCast S8x10 y shapeCasts_S80_S8x10 (ix2 p o) = y (ix1 (outc p o)) :=
  shapeCast_apply y shapeCasts_S80_S8x10 (ix2 p o) (ix1 (outc p o))
    (by rw [Shape.rowMajor_val_one, Shape.rowMajor_val_two]
        show p.val * 10 + o.val = p.val * 10 + o.val
        rfl)

/-- Eight pieces of one shape, each of extent one along the axis, laid end to end: the result at an index is the
    piece its axis coordinate names, read at the index with the same coordinates off the axis. -/
theorem concat8_apply {t s₁ : Shape} (a : Fin t.rank) (u : Fin 8 → (s₁.Idx → α))
    (h : Shape.Concatenates (([⟨s₁, u 0⟩, ⟨s₁, u 1⟩, ⟨s₁, u 2⟩, ⟨s₁, u 3⟩, ⟨s₁, u 4⟩, ⟨s₁, u 5⟩, ⟨s₁, u 6⟩, ⟨s₁, u 7⟩] :
      List ((s : Shape) × (s.Idx → α))).map (·.1)) t a)
    (hr : s₁.rank = t.rank) (h1 : s₁.size (a.cast hr.symm) = 1) (j : t.Idx) (n : Fin 8) (hn : (j a).val = n.val)
    (i : s₁.Idx) (hi : ∀ b : Fin s₁.rank, b.cast hr ≠ a → (i b).val = (j (b.cast hr)).val) :
    concatenate t a [⟨s₁, u 0⟩, ⟨s₁, u 1⟩, ⟨s₁, u 2⟩, ⟨s₁, u 3⟩, ⟨s₁, u 4⟩, ⟨s₁, u 5⟩, ⟨s₁, u 6⟩, ⟨s₁, u 7⟩] h j = u n i :=
  concatenate_ofFn_unit_apply a u h hr h1 j n hn i hi

/-- The stack of eight [1, 512, 512] pieces at (p, k, j) is piece p at (0, k, j). -/
theorem stack_w1 (u : Fin 8 → (S1x512x512.Idx → α)) (p : Fin 8) (k j : Fin 512) :
    concatenate S8x512x512 0 [⟨S1x512x512, u 0⟩, ⟨S1x512x512, u 1⟩, ⟨S1x512x512, u 2⟩, ⟨S1x512x512, u 3⟩, ⟨S1x512x512, u 4⟩,
        ⟨S1x512x512, u 5⟩, ⟨S1x512x512, u 6⟩, ⟨S1x512x512, u 7⟩]
      concatenates_S1x512x512_S1x512x512_S1x512x512_S1x512x512_S1x512x512_S1x512x512_S1x512x512_S1x512x512_S8x512x512_d0 (ix3 p k j)
      = u p (ix3 (0 : Fin 1) k j) :=
  concat8_apply (0 : Fin S8x512x512.rank) u _ rfl rfl (ix3 p k j) p rfl (ix3 (0 : Fin 1) k j) (fun b hb => by
    match b with
    | ⟨0, _⟩ => exact absurd rfl hb
    | ⟨1, _⟩ => rfl
    | ⟨2, _⟩ => rfl)

/-- The stack of eight [1, 10, 512] pieces at (p, o, k) is piece p at (0, o, k). -/
theorem stack_w2 (u : Fin 8 → (S1x10x512.Idx → α)) (p : Fin 8) (o : Fin 10) (k : Fin 512) :
    concatenate S8x10x512 0 [⟨S1x10x512, u 0⟩, ⟨S1x10x512, u 1⟩, ⟨S1x10x512, u 2⟩, ⟨S1x10x512, u 3⟩, ⟨S1x10x512, u 4⟩,
        ⟨S1x10x512, u 5⟩, ⟨S1x10x512, u 6⟩, ⟨S1x10x512, u 7⟩]
      concatenates_S1x10x512_S1x10x512_S1x10x512_S1x10x512_S1x10x512_S1x10x512_S1x10x512_S1x10x512_S8x10x512_d0 (ix3 p o k)
      = u p (ix3 (0 : Fin 1) o k) :=
  concat8_apply (0 : Fin S8x10x512.rank) u _ rfl rfl (ix3 p o k) p rfl (ix3 (0 : Fin 1) o k) (fun b hb => by
    match b with
    | ⟨0, _⟩ => exact absurd rfl hb
    | ⟨1, _⟩ => rfl
    | ⟨2, _⟩ => rfl)

/-- The 512×512 block of a 4096×4096 array at offset (512 p, 512 p), given a leading unit axis, read at (0, k, j):
    the array at row 512 p + k and column 512 p + j. -/
theorem block_w1 (W : S4096x4096.Idx → α) (p : Fin 8) (h : S4096x4096.Slices ![512 * p.val, 512 * p.val] S512x512)
    (z : Fin 1) (k j : Fin 512) :
    broadcastInDim S1x512x512 ![1, 2] bcast_S512x512_S1x512x512_1_2 (extractStridedSlice S512x512 ![512 * p.val, 512 * p.val] W h) (ix3 z k j)
      = W (ix2 (col p k) (col p j)) := by
  rw [broadcastInDim_apply ![1, 2] bcast_S512x512_S1x512x512_1_2 _ (ix3 z k j) (ix2 k j) (fun a => by
    match a with
    | ⟨0, _⟩ => rfl
    | ⟨1, _⟩ => rfl)]
  exact extractStridedSlice_apply ![512 * p.val, 512 * p.val] W h (ix2 k j) (ix2 (col p k) (col p j)) (fun a => by
    match a with
    | ⟨0, _⟩ => show p.val * 512 + k.val = 512 * p.val + k.val; omega
    | ⟨1, _⟩ => show p.val * 512 + j.val = 512 * p.val + j.val; omega)

/-- The 10×512 block of an 80×4096 array at offset (10 p, 512 p), given a leading unit axis, read at (0, o, k):
    the array at row 10 p + o and column 512 p + k. -/
theorem block_w2 (W : S80x4096.Idx → α) (p : Fin 8) (h : S80x4096.Slices ![10 * p.val, 512 * p.val] S10x512)
    (z : Fin 1) (o : Fin 10) (k : Fin 512) :
    broadcastInDim S1x10x512 ![1, 2] bcast_S10x512_S1x10x512_1_2 (extractStridedSlice S10x512 ![10 * p.val, 512 * p.val] W h) (ix3 z o k)
      = W (ix2 (outc p o) (col p k)) := by
  rw [broadcastInDim_apply ![1, 2] bcast_S10x512_S1x10x512_1_2 _ (ix3 z o k) (ix2 o k) (fun a => by
    match a with
    | ⟨0, _⟩ => rfl
    | ⟨1, _⟩ => rfl)]
  exact extractStridedSlice_apply ![10 * p.val, 512 * p.val] W h (ix2 o k) (ix2 (outc p o) (col p k)) (fun a => by
    match a with
    | ⟨0, _⟩ => show p.val * 10 + o.val = 10 * p.val + o.val; omega
    | ⟨1, _⟩ => show p.val * 512 + k.val = 512 * p.val + k.val; omega)

/-- The eight diagonal blocks of the first weight matrix, each with a leading unit axis. -/
def w1pc (W : S4096x4096.Idx → α) : Fin 8 → (S1x512x512.Idx → α) :=
  ![broadcastInDim S1x512x512 ![1, 2] bcast_S512x512_S1x512x512_1_2 (extractStridedSlice S512x512 ![0, 0] W slices_S4096x4096_S512x512_0_0),
    broadcastInDim S1x512x512 ![1, 2] bcast_S512x512_S1x512x512_1_2 (extractStridedSlice S512x512 ![512, 512] W slices_S4096x4096_S512x512_512_512),
    broadcastInDim S1x512x512 ![1, 2] bcast_S512x512_S1x512x512_1_2 (extractStridedSlice S512x512 ![1024, 1024] W slices_S4096x4096_S512x512_1024_1024),
    broadcastInDim S1x512x512 ![1, 2] bcast_S512x512_S1x512x512_1_2 (extractStridedSlice S512x512 ![1536, 1536] W slices_S4096x4096_S512x512_1536_1536),
    broadcastInDim S1x512x512 ![1, 2] bcast_S512x512_S1x512x512_1_2 (extractStridedSlice S512x512 ![2048, 2048] W slices_S4096x4096_S512x512_2048_2048),
    broadcastInDim S1x512x512 ![1, 2] bcast_S512x512_S1x512x512_1_2 (extractStridedSlice S512x512 ![2560, 2560] W slices_S4096x4096_S512x512_2560_2560),
    broadcastInDim S1x512x512 ![1, 2] bcast_S512x512_S1x512x512_1_2 (extractStridedSlice S512x512 ![3072, 3072] W slices_S4096x4096_S512x512_3072_3072),
    broadcastInDim S1x512x512 ![1, 2] bcast_S512x512_S1x512x512_1_2 (extractStridedSlice S512x512 ![3584, 3584] W slices_S4096x4096_S512x512_3584_3584)]

/-- Piece p of them at (0, k, j) is the matrix at (512 p + k, 512 p + j). -/
theorem w1pc_apply (W : S4096x4096.Idx → α) (p : Fin 8) (z : Fin 1) (k j : Fin 512) :
    w1pc W p (ix3 z k j) = W (ix2 (col p k) (col p j)) :=
  match p with
  | ⟨0, _⟩ => block_w1 W ⟨0, by omega⟩ slices_S4096x4096_S512x512_0_0 z k j
  | ⟨1, _⟩ => block_w1 W ⟨1, by omega⟩ slices_S4096x4096_S512x512_512_512 z k j
  | ⟨2, _⟩ => block_w1 W ⟨2, by omega⟩ slices_S4096x4096_S512x512_1024_1024 z k j
  | ⟨3, _⟩ => block_w1 W ⟨3, by omega⟩ slices_S4096x4096_S512x512_1536_1536 z k j
  | ⟨4, _⟩ => block_w1 W ⟨4, by omega⟩ slices_S4096x4096_S512x512_2048_2048 z k j
  | ⟨5, _⟩ => block_w1 W ⟨5, by omega⟩ slices_S4096x4096_S512x512_2560_2560 z k j
  | ⟨6, _⟩ => block_w1 W ⟨6, by omega⟩ slices_S4096x4096_S512x512_3072_3072 z k j
  | ⟨7, _⟩ => block_w1 W ⟨7, by omega⟩ slices_S4096x4096_S512x512_3584_3584 z k j

/-- The eight diagonal blocks of the second weight matrix, each with a leading unit axis. -/
def w2pc (W : S80x4096.Idx → α) : Fin 8 → (S1x10x512.Idx → α) :=
  ![broadcastInDim S1x10x512 ![1, 2] bcast_S10x512_S1x10x512_1_2 (extractStridedSlice S10x512 ![0, 0] W slices_S80x4096_S10x512_0_0),
    broadcastInDim S1x10x512 ![1, 2] bcast_S10x512_S1x10x512_1_2 (extractStridedSlice S10x512 ![10, 512] W slices_S80x4096_S10x512_10_512),
    broadcastInDim S1x10x512 ![1, 2] bcast_S10x512_S1x10x512_1_2 (extractStridedSlice S10x512 ![20, 1024] W slices_S80x4096_S10x512_20_1024),
    broadcastInDim S1x10x512 ![1, 2] bcast_S10x512_S1x10x512_1_2 (extractStridedSlice S10x512 ![30, 1536] W slices_S80x4096_S10x512_30_1536),
    broadcastInDim S1x10x512 ![1, 2] bcast_S10x512_S1x10x512_1_2 (extractStridedSlice S10x512 ![40, 2048] W slices_S80x4096_S10x512_40_2048),
    broadcastInDim S1x10x512 ![1, 2] bcast_S10x512_S1x10x512_1_2 (extractStridedSlice S10x512 ![50, 2560] W slices_S80x4096_S10x512_50_2560),
    broadcastInDim S1x10x512 ![1, 2] bcast_S10x512_S1x10x512_1_2 (extractStridedSlice S10x512 ![60, 3072] W slices_S80x4096_S10x512_60_3072),
    broadcastInDim S1x10x512 ![1, 2] bcast_S10x512_S1x10x512_1_2 (extractStridedSlice S10x512 ![70, 3584] W slices_S80x4096_S10x512_70_3584)]

/-- Piece p of them at (0, o, k) is the matrix at (10 p + o, 512 p + k). -/
theorem w2pc_apply (W : S80x4096.Idx → α) (p : Fin 8) (z : Fin 1) (o : Fin 10) (k : Fin 512) :
    w2pc W p (ix3 z o k) = W (ix2 (outc p o) (col p k)) :=
  match p with
  | ⟨0, _⟩ => block_w2 W ⟨0, by omega⟩ slices_S80x4096_S10x512_0_0 z o k
  | ⟨1, _⟩ => block_w2 W ⟨1, by omega⟩ slices_S80x4096_S10x512_10_512 z o k
  | ⟨2, _⟩ => block_w2 W ⟨2, by omega⟩ slices_S80x4096_S10x512_20_1024 z o k
  | ⟨3, _⟩ => block_w2 W ⟨3, by omega⟩ slices_S80x4096_S10x512_30_1536 z o k
  | ⟨4, _⟩ => block_w2 W ⟨4, by omega⟩ slices_S80x4096_S10x512_40_2048 z o k
  | ⟨5, _⟩ => block_w2 W ⟨5, by omega⟩ slices_S80x4096_S10x512_50_2560 z o k
  | ⟨6, _⟩ => block_w2 W ⟨6, by omega⟩ slices_S80x4096_S10x512_60_3072 z o k
  | ⟨7, _⟩ => block_w2 W ⟨7, by omega⟩ slices_S80x4096_S10x512_70_3584 z o k

end Pure

section Split
variable {τ' : Topo} {sig' : RefSig} {Val : EltTy → Type}

/-- Running two stretches of operations one after the other is running their concatenation. -/
theorem after_append : ∀ (ops₁ ops₂ : List (HloOp τ' sig' Val)) (W : Valuation τ' sig' Val),
    StableHlo.after (ops₁ ++ ops₂) W = StableHlo.after ops₂ (StableHlo.after ops₁ W)
  | [], _, _ => rfl
  | op :: ops, ops₂, W => after_append ops ops₂ (op.result W)

end Split

/-! ## The host-made arrays at the region's entry -/

variable (m : (ℓ : Loc nD τ sig) → Buf (Elt Ideal) ℓ)

/-- The reshaped input at (b, p, j) is the launched input at (b, 512 p + j). -/
theorem V_x (c : Dev nD) (b : Fin 8192) (p : Fin 8) (j : Fin 512) :
    (V m c main_v38 : S8192x8x512.Idx → EReal) (ix3 b p j)
      = (m ((c : Thread nD τ).loc main_arg0) : S8192x4096.Idx → EReal) (ix2 b (col p j)) := by
  have e : (V m c main_v38 : S8192x8x512.Idx → EReal)
      = shapeCast _ (m ((c : Thread nD τ).loc main_arg0)) shapeCasts_S8192x4096_S8192x8x512 := by
    dsimp only [V, hostOps0]; after_results; rfl
  rw [e]
  exact reshape_x _ b p j

/-- The reshaped first bias at (p, k) is the launched one at 512 p + k. -/
theorem V_b1 (c : Dev nD) (p : Fin 8) (k : Fin 512) :
    (V m c main_v36 : S8x512.Idx → EReal) (ix2 p k)
      = (m ((c : Thread nD τ).loc main_arg2) : S4096.Idx → EReal) (ix1 (col p k)) := by
  have e : (V m c main_v36 : S8x512.Idx → EReal)
      = shapeCast _ (m ((c : Thread nD τ).loc main_arg2)) shapeCasts_S4096_S8x512 := by
    dsimp only [V, hostOps0]; after_results; rfl
  rw [e]
  exact reshape_b1 _ p k

/-- The reshaped second bias at (p, o) is the launched one at 10 p + o. -/
theorem V_b2 (c : Dev nD) (p : Fin 8) (o : Fin 10) :
    (V m c main_v37 : S8x10.Idx → EReal) (ix2 p o)
      = (m ((c : Thread nD τ).loc main_arg4) : S80.Idx → EReal) (ix1 (outc p o)) := by
  have e : (V m c main_v37 : S8x10.Idx → EReal)
      = shapeCast _ (m ((c : Thread nD τ).loc main_arg4)) shapeCasts_S80_S8x10 := by
    dsimp only [V, hostOps0]; after_results; rfl
  rw [e]
  exact reshape_b2 _ p o

/-- The stacked first weights at (p, k, j) are the launched matrix at (512 p + k, 512 p + j): the first sixteen
    operations leave the eight blocks in their buffers, the stack lays them end to end, and the format change is the
    identity. -/
theorem V_w1 (c : Dev nD) (p : Fin 8) (k j : Fin 512) :
    (V m c main_v17 : S8x512x512.Idx → EReal) (ix3 p k j)
      = (m ((c : Thread nD τ).loc main_arg1) : S4096x4096.Idx → EReal) (ix2 (col p k) (col p j)) := by
  dsimp only [V]
  rw [← List.take_append_drop 16 (hostOps0 (F := Ideal)), after_append]
  have h0 : StableHlo.after (List.take 16 (hostOps0 (F := Ideal))) (fun b => m (c, b)) (Proc.devRef .tc main_v8)
      = w1pc (m ((c : Thread nD τ).loc main_arg1)) 0 := by
    dsimp only [hostOps0, List.take]; after_results <;> rfl
  have h1 : StableHlo.after (List.take 16 (hostOps0 (F := Ideal))) (fun b => m (c, b)) (Proc.devRef .tc main_v9)
      = w1pc (m ((c : Thread nD τ).loc main_arg1)) 1 := by
    dsimp only [hostOps0, List.take]; after_results <;> rfl
  have h2 : StableHlo.after (List.take 16 (hostOps0 (F := Ideal))) (fun b => m (c, b)) (Proc.devRef .tc main_v10)
      = w1pc (m ((c : Thread nD τ).loc main_arg1)) 2 := by
    dsimp only [hostOps0, List.take]; after_results <;> rfl
  have h3 : StableHlo.after (List.take 16 (hostOps0 (F := Ideal))) (fun b => m (c, b)) (Proc.devRef .tc main_v11)
      = w1pc (m ((c : Thread nD τ).loc main_arg1)) 3 := by
    dsimp only [hostOps0, List.take]; after_results <;> rfl
  have h4 : StableHlo.after (List.take 16 (hostOps0 (F := Ideal))) (fun b => m (c, b)) (Proc.devRef .tc main_v12)
      = w1pc (m ((c : Thread nD τ).loc main_arg1)) 4 := by
    dsimp only [hostOps0, List.take]; after_results <;> rfl
  have h5 : StableHlo.after (List.take 16 (hostOps0 (F := Ideal))) (fun b => m (c, b)) (Proc.devRef .tc main_v13)
      = w1pc (m ((c : Thread nD τ).loc main_arg1)) 5 := by
    dsimp only [hostOps0, List.take]; after_results <;> rfl
  have h6 : StableHlo.after (List.take 16 (hostOps0 (F := Ideal))) (fun b => m (c, b)) (Proc.devRef .tc main_v14)
      = w1pc (m ((c : Thread nD τ).loc main_arg1)) 6 := by
    dsimp only [hostOps0, List.take]; after_results <;> rfl
  have h7 : StableHlo.after (List.take 16 (hostOps0 (F := Ideal))) (fun b => m (c, b)) (Proc.devRef .tc main_v15)
      = w1pc (m ((c : Thread nD τ).loc main_arg1)) 7 := by
    dsimp only [hostOps0, List.take]; after_results <;> rfl
  generalize StableHlo.after (List.take 16 (hostOps0 (F := Ideal))) (fun b => m (c, b)) = G at h0 h1 h2 h3 h4 h5 h6 h7 ⊢
  dsimp only [hostOps0, List.drop]
  after_results
  dsimp only [Matrix.cons_val_zero, Matrix.cons_val_one, Matrix.cons_val]
  rw [h0, h1, h2, h3, h4, h5, h6, h7, truncf_apply, stack_w1 (w1pc (m ((c : Thread nD τ).loc main_arg1))) p k j]
  exact w1pc_apply _ p 0 k j

/-- The stacked second weights at (p, o, k) are the launched matrix at (10 p + o, 512 p + k): the first thirty-four
    operations leave the eight blocks in their buffers, the stack lays them end to end, and the format change is the
    identity. -/
theorem V_w2 (c : Dev nD) (p : Fin 8) (o : Fin 10) (k : Fin 512) :
    (V m c main_v35 : S8x10x512.Idx → EReal) (ix3 p o k)
      = (m ((c : Thread nD τ).loc main_arg3) : S80x4096.Idx → EReal) (ix2 (outc p o) (col p k)) := by
  dsimp only [V]
  rw [← List.take_append_drop 34 (hostOps0 (F := Ideal)), after_append]
  have h0 : StableHlo.after (List.take 34 (hostOps0 (F := Ideal))) (fun b => m (c, b)) (Proc.devRef .tc main_v26)
      = w2pc (m ((c : Thread nD τ).loc main_arg3)) 0 := by
    dsimp only [hostOps0, List.take]; after_results <;> rfl
  have h1 : StableHlo.after (List.take 34 (hostOps0 (F := Ideal))) (fun b => m (c, b)) (Proc.devRef .tc main_v27)
      = w2pc (m ((c : Thread nD τ).loc main_arg3)) 1 := by
    dsimp only [hostOps0, List.take]; after_results <;> rfl
  have h2 : StableHlo.after (List.take 34 (hostOps0 (F := Ideal))) (fun b => m (c, b)) (Proc.devRef .tc main_v28)
      = w2pc (m ((c : Thread nD τ).loc main_arg3)) 2 := by
    dsimp only [hostOps0, List.take]; after_results <;> rfl
  have h3 : StableHlo.after (List.take 34 (hostOps0 (F := Ideal))) (fun b => m (c, b)) (Proc.devRef .tc main_v29)
      = w2pc (m ((c : Thread nD τ).loc main_arg3)) 3 := by
    dsimp only [hostOps0, List.take]; after_results <;> rfl
  have h4 : StableHlo.after (List.take 34 (hostOps0 (F := Ideal))) (fun b => m (c, b)) (Proc.devRef .tc main_v30)
      = w2pc (m ((c : Thread nD τ).loc main_arg3)) 4 := by
    dsimp only [hostOps0, List.take]; after_results <;> rfl
  have h5 : StableHlo.after (List.take 34 (hostOps0 (F := Ideal))) (fun b => m (c, b)) (Proc.devRef .tc main_v31)
      = w2pc (m ((c : Thread nD τ).loc main_arg3)) 5 := by
    dsimp only [hostOps0, List.take]; after_results <;> rfl
  have h6 : StableHlo.after (List.take 34 (hostOps0 (F := Ideal))) (fun b => m (c, b)) (Proc.devRef .tc main_v32)
      = w2pc (m ((c : Thread nD τ).loc main_arg3)) 6 := by
    dsimp only [hostOps0, List.take]; after_results <;> rfl
  have h7 : StableHlo.after (List.take 34 (hostOps0 (F := Ideal))) (fun b => m (c, b)) (Proc.devRef .tc main_v33)
      = w2pc (m ((c : Thread nD τ).loc main_arg3)) 7 := by
    dsimp only [hostOps0, List.take]; after_results <;> rfl
  generalize StableHlo.after (List.take 34 (hostOps0 (F := Ideal))) (fun b => m (c, b)) = G at h0 h1 h2 h3 h4 h5 h6 h7 ⊢
  dsimp only [hostOps0, List.drop]
  after_results
  dsimp only [Matrix.cons_val_zero, Matrix.cons_val_one, Matrix.cons_val]
  rw [h0, h1, h2, h3, h4, h5, h6, h7, truncf_apply, stack_w2 (w2pc (m ((c : Thread nD τ).loc main_arg3))) p o k]
  exact w2pc_apply _ p 0 o k

end Cert.KernelIdeal.HostBlocks

end
-- ==== Proof.KernelValue.lean ====
/-
  The idealized kernel computes the specification.

  At grid point `t` the body's eight stores fill the output block slab by slab. Store `q` holds module `q`'s arithmetic on
  module `q`'s slabs of the point's five blocks; a slab read is a read of the block at coordinate `q`, the block is the
  host-made operand array at the point's rows, and the operand arrays are the argument arrays at module `q`'s rows and
  columns (the stacked diagonal blocks of the two weight matrices, the reshaped biases and input). So store `q`, at
  row `r` and output unit `o`, is the specification at `[512 t + r, q, o]` (`slab_spec`, `piece_spec`), the whole block
  the body leaves is the specification read through block `t` of the output array (`after5_at`: eight pieces, each a
  tile of one function), and that is what the point writes back (`flushed5_eq`). The sixteen blocks cover the array,
  so after the run the result array is the specification of the launch contents (`final5`, `run`).
-/
import proofs.«165881_j29575144800944_1_alg».proof.Proof.IdealFrame
import proofs.«165881_j29575144800944_1_alg».proof.Proof.SlabValue
import proofs.«165881_j29575144800944_1_alg».proof.Proof.BlockReads
import proofs.«165881_j29575144800944_1_alg».proof.Proof.HostBlocks
import proofs.«165881_j29575144800944_1_alg».proof.Proof.Spec
import Idealize.ShloMosaic.Lib.Pipeline.Value

set_option maxRecDepth 16384

noncomputable section

namespace Cert.KernelIdeal.KV

open Cert.KernelIdeal Cert.KernelIdeal.Gen Cert.KernelIdeal.Fr Cert.KernelIdeal.ModuleValue Cert.KernelIdeal.Slab
  Cert.KernelIdeal.BlockReads Cert.KernelIdeal.HostBlocks Cert.Spec
  Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The specification at the launch contents of the five argument arrays, on core `c`. -/
abbrev GM (c : Dev nD) : S8192x8x10.Idx → EReal :=
  Cert.Spec.G (m ((c : Thread nD τ).loc main_arg0)) (m ((c : Thread nD τ).loc main_arg1)) (m ((c : Thread nD τ).loc main_arg2))
    (m ((c : Thread nD τ).loc main_arg3)) (m ((c : Thread nD τ).loc main_arg4))

/-- Module `q`'s outputs at grid point `t`, computed from module `q`'s slabs of the point's five blocks, are the
    specification's outputs of module `q` on the point's rows: each block read is the host-made array at the point's
    rows, which is the argument array at module `q`'s rows and columns. -/
theorem slab_spec (c : Dev nD) (t : Fin cfg0.N) (q : ℕ) (hq : q < 8)
    (inbx : ∀ d, (![0, q, 0] : Fin 3 → ℕ) d + S512x1x512.size d ≤ S512x8x512.size d)
    (inbw : ∀ d, (![q, 0, 0] : Fin 3 → ℕ) d + S1x512x512.size d ≤ S8x512x512.size d)
    (inbb : ∀ d, (![q, 0] : Fin 2 → ℕ) d + S1x512.size d ≤ S8x512.size d)
    (inbu : ∀ d, (![q, 0, 0] : Fin 3 → ℕ) d + S1x10x512.size d ≤ S8x10x512.size d)
    (inbc : ∀ d, (![q, 0] : Fin 2 → ℕ) d + S1x10.size d ≤ S8x10.size d)
    (r : Fin 512) (o : Fin 10) :
    modOut (F := Ideal) (View.ld (iblk m c 0 t) (Rect.unit (s := S512x8x512) ![0, q, 0] S512x1x512.size inbx))
        (View.ld (iblk m c 1 t) (Rect.unit (s := S8x512x512) ![q, 0, 0] S1x512x512.size inbw))
        (View.ld (iblk m c 2 t) (Rect.unit (s := S8x512) ![q, 0] S1x512.size inbb))
        (View.ld (iblk m c 3 t) (Rect.unit (s := S8x10x512) ![q, 0, 0] S1x10x512.size inbu))
        (View.ld (iblk m c 4 t) (Rect.unit (s := S8x10) ![q, 0] S1x10.size inbc)) (ix3 r 0 o)
      = GM m c (ix3 (row t r) ⟨q, hq⟩ o) := by
  refine (slab_of_reads (iblk m c 0 t) (iblk m c 1 t) (iblk m c 2 t) (iblk m c 3 t) (iblk m c 4 t) q hq inbx inbw inbb inbu inbc r o).trans ?_
  show _ = Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (row t r) ⟨q, hq⟩ o
  unfold Cert.Spec.out Cert.Spec.hidden
  rw [iblk_b2 m c t ⟨q, hq⟩ o, V_b2 m c ⟨q, hq⟩ o]
  refine congrArg (· + _) (Finset.sum_congr rfl fun k _ => ?_)
  rw [iblk_b1 m c t ⟨q, hq⟩ k, V_b1 m c ⟨q, hq⟩ k, iblk_w2 m c t ⟨q, hq⟩ o k, V_w2 m c ⟨q, hq⟩ o k]
  refine congrArg (fun s => max (s + _) 0 * _) (Finset.sum_congr rfl fun j _ => ?_)
  rw [iblk_x m c t r ⟨q, hq⟩ j, V_x m c (row t r) ⟨q, hq⟩ j, iblk_w1 m c t ⟨q, hq⟩ k j, V_w1 m c ⟨q, hq⟩ k j]

/-- The output slab `[:, q, :]` of a block, placed in the block. -/
theorem slab_emb (q : ℕ) (hq : q < 8) (inbo : ∀ d, (![0, q, 0] : Fin 3 → ℕ) d + S512x1x10.size d ≤ S512x8x10.size d)
    (r : Fin 512) (u : Fin 1) (o : Fin 10) :
    (Rect.unit (s := S512x8x10) ![0, q, 0] S512x1x10.size inbo).emb (ix3 r u o) = (ix3 r ⟨q, hq⟩ o : S512x8x10.Idx) := by
  funext d
  apply Fin.ext
  have hu : u.val = 0 := by omega
  match d with
  | ⟨0, _⟩ => show 0 + 1 * r.val = r.val; omega
  | ⟨1, _⟩ => show q + 1 * u.val = q; omega
  | ⟨2, _⟩ => show 0 + 1 * o.val = o.val; omega

/-- One store of the body: module `q`'s payload, at a local index of its slab, is the specification at the place that
    index takes in the output array. -/
theorem piece_spec (c : Dev nD) (t : Fin cfg0.N) (q : ℕ) (hq : q < 8)
    (inbx : ∀ d, (![0, q, 0] : Fin 3 → ℕ) d + S512x1x512.size d ≤ S512x8x512.size d)
    (inbw : ∀ d, (![q, 0, 0] : Fin 3 → ℕ) d + S1x512x512.size d ≤ S8x512x512.size d)
    (inbb : ∀ d, (![q, 0] : Fin 2 → ℕ) d + S1x512.size d ≤ S8x512.size d)
    (inbu : ∀ d, (![q, 0, 0] : Fin 3 → ℕ) d + S1x10x512.size d ≤ S8x10x512.size d)
    (inbc : ∀ d, (![q, 0] : Fin 2 → ℕ) d + S1x10.size d ≤ S8x10.size d)
    (inbo : ∀ d, (![0, q, 0] : Fin 3 → ℕ) d + S512x1x10.size d ≤ S512x8x10.size d)
    (x : S512x1x10.Idx) :
    modOut (F := Ideal) (View.ld (iblk m c 0 t) (Rect.unit (s := S512x8x512) ![0, q, 0] S512x1x512.size inbx))
        (View.ld (iblk m c 1 t) (Rect.unit (s := S8x512x512) ![q, 0, 0] S1x512x512.size inbw))
        (View.ld (iblk m c 2 t) (Rect.unit (s := S8x512) ![q, 0] S1x512.size inbb))
        (View.ld (iblk m c 3 t) (Rect.unit (s := S8x10x512) ![q, 0, 0] S1x10x512.size inbu))
        (View.ld (iblk m c 4 t) (Rect.unit (s := S8x10) ![q, 0] S1x10.size inbc)) x
      = GM m c (((cfg0.win 5).blk t).view.emb ((Rect.unit (s := S512x8x10) ![0, q, 0] S512x1x10.size inbo).emb x)) := by
  obtain ⟨r, u, o, rfl⟩ : ∃ (r : Fin 512) (u : Fin 1) (o : Fin 10), x = ix3 r u o := ⟨x 0, x 1, x 2, eq_ix3 x⟩
  have hu : u = 0 := Fin.ext (by omega)
  subst hu
  rw [slab_emb q hq inbo r 0 o, blk5_emb t r ⟨q, hq⟩ o]
  exact slab_spec m c t q hq inbx inbw inbb inbu inbc r o

/-- What grid point `t` leaves in the output buffer is the specification read through the point's block. -/
theorem after5_at (c : Dev nD) (t : Fin cfg0.N) (y : S512x8x10.Idx) :
    out5 (iblk m c 0 t) (iblk m c 1 t) (iblk m c 2 t) (iblk m c 3 t) (iblk m c 4 t) y
      = GM m c (((cfg0.win 5).blk t).view.emb y) := by
  unfold out5
  refine View.canon_apply_of_pieces (Val := Elt Ideal) (fun y => GM m c (((cfg0.win 5).blk t).view.emb y)) _ ?_ y (cover5 _ _ _ _ _ _ _ _ y)
  intro p hp
  simp only [List.mem_cons, List.mem_nil_iff, or_false] at hp
  rcases hp with rfl | rfl | rfl | rfl | rfl | rfl | rfl | rfl
  · intro x
    show k0_pay16 (View.ld (iblk m c 0 t) rx7) (View.ld (iblk m c 1 t) rw7) (View.ld (iblk m c 2 t) rb7) (View.ld (iblk m c 3 t) ru7) (View.ld (iblk m c 4 t) rc7) x = _
    rw [pay16_eq]
    exact piece_spec m c t 7 (by omega) inb_S512x8x512_S512x1x512_0_7_0 inb_S8x512x512_S1x512x512_7_0_0 inb_S8x512_S1x512_7_0 inb_S8x10x512_S1x10x512_7_0_0 inb_S8x10_S1x10_7_0 inb_S512x8x10_S512x1x10_0_7_0 x
  · intro x
    show k0_pay15 (k0_pay13 (View.ld (iblk m c 0 t) rx6) (View.ld (iblk m c 1 t) rw6) (View.ld (iblk m c 2 t) rb6)) (k0_pay14 (View.ld (iblk m c 3 t) ru6)) (View.ld (iblk m c 4 t) rc6) x = _
    rw [pay15_eq]
    exact piece_spec m c t 6 (by omega) inb_S512x8x512_S512x1x512_0_6_0 inb_S8x512x512_S1x512x512_6_0_0 inb_S8x512_S1x512_6_0 inb_S8x10x512_S1x10x512_6_0_0 inb_S8x10_S1x10_6_0 inb_S512x8x10_S512x1x10_0_6_0 x
  · intro x
    show k0_pay12 (k0_pay10 (View.ld (iblk m c 0 t) rx5)) (k0_pay11 (View.ld (iblk m c 1 t) rw5)) (View.ld (iblk m c 2 t) rb5) (View.ld (iblk m c 3 t) ru5) (View.ld (iblk m c 4 t) rc5) x = _
    rw [pay12_eq]
    exact piece_spec m c t 5 (by omega) inb_S512x8x512_S512x1x512_0_5_0 inb_S8x512x512_S1x512x512_5_0_0 inb_S8x512_S1x512_5_0 inb_S8x10x512_S1x10x512_5_0_0 inb_S8x10_S1x10_5_0 inb_S512x8x10_S512x1x10_0_5_0 x
  · intro x
    show k0_pay9 (View.ld (iblk m c 0 t) rx4) (View.ld (iblk m c 1 t) rw4) (View.ld (iblk m c 2 t) rb4) (View.ld (iblk m c 3 t) ru4) (View.ld (iblk m c 4 t) rc4) x = _
    rw [pay9_eq]
    exact piece_spec m c t 4 (by omega) inb_S512x8x512_S512x1x512_0_4_0 inb_S8x512x512_S1x512x512_4_0_0 inb_S8x512_S1x512_4_0 inb_S8x10x512_S1x10x512_4_0_0 inb_S8x10_S1x10_4_0 inb_S512x8x10_S512x1x10_0_4_0 x
  · intro x
    show k0_pay8 (View.ld (iblk m c 0 t) rx3) (View.ld (iblk m c 1 t) rw3) (View.ld (iblk m c 2 t) rb3) (View.ld (iblk m c 3 t) ru3) (View.ld (iblk m c 4 t) rc3) x = _
    rw [pay8_eq]
    exact piece_spec m c t 3 (by omega) inb_S512x8x512_S512x1x512_0_3_0 inb_S8x512x512_S1x512x512_3_0_0 inb_S8x512_S1x512_3_0 inb_S8x10x512_S1x10x512_3_0_0 inb_S8x10_S1x10_3_0 inb_S512x8x10_S512x1x10_0_3_0 x
  · intro x
    show k0_pay7 (k0_pay5 (View.ld (iblk m c 0 t) rx2) (View.ld (iblk m c 1 t) rw2) (View.ld (iblk m c 2 t) rb2)) (k0_pay6 (View.ld (iblk m c 3 t) ru2)) (View.ld (iblk m c 4 t) rc2) x = _
    rw [pay7_eq]
    exact piece_spec m c t 2 (by omega) inb_S512x8x512_S512x1x512_0_2_0 inb_S8x512x512_S1x512x512_2_0_0 inb_S8x512_S1x512_2_0 inb_S8x10x512_S1x10x512_2_0_0 inb_S8x10_S1x10_2_0 inb_S512x8x10_S512x1x10_0_2_0 x
  · intro x
    show k0_pay4 (k0_pay2 (View.ld (iblk m c 0 t) rx1)) (k0_pay3 (View.ld (iblk m c 1 t) rw1)) (View.ld (iblk m c 2 t) rb1) (View.ld (iblk m c 3 t) ru1) (View.ld (iblk m c 4 t) rc1) x = _
    rw [pay4_eq]
    exact piece_spec m c t 1 (by omega) inb_S512x8x512_S512x1x512_0_1_0 inb_S8x512x512_S1x512x512_1_0_0 inb_S8x512_S1x512_1_0 inb_S8x10x512_S1x10x512_1_0_0 inb_S8x10_S1x10_1_0 inb_S512x8x10_S512x1x10_0_1_0 x
  · intro x
    show k0_pay1 (View.ld (iblk m c 0 t) rx0) (View.ld (iblk m c 1 t) rw0) (View.ld (iblk m c 2 t) rb0) (View.ld (iblk m c 3 t) ru0) (View.ld (iblk m c 4 t) rc0) x = _
    rw [pay1_eq]
    exact piece_spec m c t 0 (by omega) inb_S512x8x512_S512x1x512_0_0_0 inb_S8x512x512_S1x512x512_0_0_0 inb_S8x512_S1x512_0_0 inb_S8x10x512_S1x10x512_0_0_0 inb_S8x10_S1x10_0_0 inb_S512x8x10_S512x1x10_0_0_0 x

/-- What point `t` writes back is block `t` of the specification at the launch contents. -/
theorem flushed5_eq (c : Dev nD) (t : Fin cfg0.N) :
    (dats m 0 c).flushed 5 t = ((cfg0.win 5).blk t).view.read (Elt Ideal) (GM m c) := by
  show (cfg0.win 5).cut (grid0.coords t) ((dats m 0 c).after 5 t) = _
  rw [after5]
  funext y
  exact after5_at m c t y

/-- The output array after the run is the specification at the launch contents: every point writes back a block of it,
    and the blocks cover the array. -/
theorem final5 (c : Dev nD) : (dats m 0 c).arrAt 5 cfg0.N = GM m c :=
  (dats m 0 c).arrAt_eq_of_cover 5 (GM m c) (fun t _ => flushed5_eq m c t) cover5_arr

/-- The idealized kernel's run: it terminates, the result array holds the specification of the launch contents, and the
    five argument arrays are unchanged. -/
theorem run : θ_run defs (onTc (τ := τ) (main (F := Ideal))) ⟨m, fun _ => 0, ρ⟩ fun r => ∀ c : Dev nD,
      r.2.mem ((c.tc : Thread nD τ).loc main_v39) = GM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 5).trans (final5 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.KV

end
-- ==== Proof.lean ====
/-
  Eight two-layer perceptrons side by side: the kernel against its dense masked reference, over the extended reals.

  Module `p` of the network reads columns `512p … 512p+511` of an input row, applies the `p`-th diagonal 512×512 block of
  the first weight matrix and its bias slice, takes the positive part, and applies the `p`-th diagonal 10×512 block of the
  second weight matrix and its bias slice. The kernel slices those blocks out on the host, stacks them, and on each of
  sixteen row blocks runs the eight small products one after the other. The reference multiplies both weight matrices
  by 0/1 block-diagonal masks and takes two dense products. Both are shown equal to one specification function
  (Proof/Spec.lean): the kernel's result array because every grid point writes back a block of it and the blocks cover
  the array (Proof/KernelValue.lean), the reference's because a term outside a module's block carries a factor `w · 0`
  and vanishes, so each dense sum is the block's sum (Proof/RefValue.lean). No finiteness is used: `w · 0 = 0` and
  `w · 1 = w` hold for every extended real.

  The three frame claims: the kernel (as printed, and idealized) is host operations followed by one pipelined region
  whose body reads five input blocks and fills the output block by eight stores that tile it, so the pipeline library's
  frame run applies (Proof/IdealFrame.lean, Proof/BitsFrame.lean); the reference is host operations only. The ideal pass
  rewrote nothing, so the preservation claim is trivial.
-/
import proofs.«165881_j29575144800944_1_alg».proof.Defs
import proofs.«165881_j29575144800944_1_alg».proof.Proof.Gen.Kernel
import proofs.«165881_j29575144800944_1_alg».proof.Proof.Gen.KernelIdeal
import proofs.«165881_j29575144800944_1_alg».proof.Proof.Gen.ReferenceIdeal
import proofs.«165881_j29575144800944_1_alg».proof.Proof.Gen.Pre_finite_inputs
import proofs.«165881_j29575144800944_1_alg».proof.Proof.BitsFrame
import proofs.«165881_j29575144800944_1_alg».proof.Proof.RefValue
import proofs.«165881_j29575144800944_1_alg».proof.Proof.KernelValue

noncomputable section

namespace Cert.Proof

open Idealize.ShloMosaic Idealize.SL.Sem

/-- The kernel as printed runs to the end, faults nowhere and leaves its five argument arrays as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the ideal values. -/
theorem preserves : Cert.preserves_Kernel_KernelIdeal := trivial

/-- From memories that agree on the five arguments, the idealized kernel's result array and the idealized reference's
    both end at the specification of those arguments: the kernel's because each grid point writes back a block of it
    and the blocks cover the array, the reference's because its 0/1 masks remove every term outside a module's block. -/
theorem algebraic : Cert.algebraic_KernelIdeal_ReferenceIdeal := by
  intro m ρ m' ρ' _ hagree
  refine ⟨fun c => Cert.KernelIdeal.KV.GM m c, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _ _ _ _).trans ?_
  rw [Cert.RefValue.ref_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
